-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "inv_3072" .f32 0x39AAAAAB#32 ((1 / 3072 : ℝ) : EReal)
  ∧ IdealRules.named_const.Statement Cert.KernelIdeal.κ "inv_3072" .f32 0x39AAAAAB#32 ((1 / 3072 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S3072 : Shape := ⟨1, ![3072]⟩
abbrev S3072x1024 : Shape := ⟨2, ![3072, 1024]⟩
abbrev S1024 : Shape := ⟨1, ![1024]⟩
abbrev S1024x3 : Shape := ⟨2, ![1024, 3]⟩
abbrev S3 : Shape := ⟨1, ![3]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S3072 : S_.BroadcastsInDim S3072 (![] : Fin 0 → Fin S3072.rank)
  reducesTo_S3072_S_d0 : S3072.ReducesTo [0] S_
  bcast_S_S3072x1024 : S_.BroadcastsInDim S3072x1024 (![] : Fin 0 → Fin S3072x1024.rank)
  reducesTo_S3072x1024_S_d0_1 : S3072x1024.ReducesTo [0, 1] S_
  bcast_S_S1024 : S_.BroadcastsInDim S1024 (![] : Fin 0 → Fin S1024.rank)
  reducesTo_S1024_S_d0 : S1024.ReducesTo [0] S_
  bcast_S_S1024x3 : S_.BroadcastsInDim S1024x3 (![] : Fin 0 → Fin S1024x3.rank)
  reducesTo_S1024x3_S_d0_1 : S1024x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S1024x3 .f32) (main_arg8 : FVec F S3 .f32) (main_v33 : IVec S_ 1) : IVec S_ 1 :=
  let main_v34 : FVec F S1024x3 .f32 := Host.absf main_arg7
  let main_cst_12 : FVec F S_ .f32 := constant S_ .f32 0x7F800000#32
  let main_v35 : FVec F S1024x3 .f32 := broadcastInDim S1024x3 ![] bcast_S_S1024x3 main_cst_12
  let main_v36 : IVec S1024x3 1 := cmpf .olt main_v34 main_v35
  let main_c_13 : IVec S_ 1 := constantI S_ 1 1#1
  let main_v37 : IVec S_ 1 := (fun x v => Host.reduce IntOp.andi x v reducesTo_S1024x3_S_d0_1 h_S_) main_v36 main_c_13
  let main_v38 : IVec S_ 1 := andi main_v33 main_v37
  let main_v39 : FVec F S3 .f32 := Host.absf main_arg8
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg4 : FVec F S3072 .f32) (main_arg5 : FVec F S3072x1024 .f32) (main_arg6 : FVec F S1024 .f32) (main_arg7 : FVec F S1024x3 .f32) (main_arg8 : FVec F S3 .f32) (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  let main_v19 : FVec F S3072 .f32 := Host.absf main_arg4
  let main_cst_6 : FVec F S_ .f32 := constant S_ .f32 0x7F800000#32
  let main_v20 : FVec F S3072 .f32 := broadcastInDim S3072 ![] bcast_S_S3072 main_cst_6
  let main_v21 : IVec S3072 1 := cmpf .olt main_v19 main_v20
  let main_c_7 : IVec S_ 1 := constantI S_ 1 1#1
  let main_v22 : IVec S_ 1 := (fun x v => Host.reduce IntOp.andi x v reducesTo_S3072_S_d0 h_S_) main_v21 main_c_7
  let main_v23 : IVec S_ 1 := andi main_v18 main_v22
  let main_v24 : FVec F S3072x1024 .f32 := Host.absf main_arg5
  let main_cst_8 : FVec F S_ .f32 := constant S_ .f32 0x7F800000#32
  let main_v25 : FVec F S3072x1024 .f32 := broadcastInDim S3072x1024 ![] bcast_S_S3072x1024 main_cst_8
  let main_v26 : IVec S3072x1024 1 := cmpf .olt main_v24 main_v25
  let main_c_9 : IVec S_ 1 := constantI S_ 1 1#1
  let main_v27 : IVec S_ 1 := (fun x v => Host.reduce IntOp.andi x v reducesTo_S3072x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S32768x1024 .f32) (main_arg1 : FVec F S32768x1024 .f32) (main_arg2 : FVec F S32768x1024 .f32) (main_arg3 : FVec F S3072 .f32) (main_arg4 : FVec F S3072 .f32) (main_arg5 : FVec F S3072x1024 .f32) (main_arg6 : FVec F S1024 .f32) (main_arg7 : FVec F S1024x3 .f32) (main_arg8 : FVec F S3 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S32768x1024 .f32 := Host.absf main_arg2
  let main_cst_2 : FVec F S_ .f32 := constant S_ .f32 0x7F800000#32
  let main_v10 : FVec F S32768x1024 .f32 := broadcastInDim S32768x1024 ![] bcast_S_S32768x1024 main_cst_2
  let main_v11 : IVec S32768x1024 1 := cmpf .olt main_v9 main_v10
  let main_c_3 : IVec S_ 1 := constantI S_ 1 1#1
  let main_v12 : IVec S_ 1 := (fun x v => Host.reduce IntOp.andi x v reducesTo_S32768x1024_S_d0_1 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_arg4 main_arg5 main_arg6 main_arg7 main_arg8 main_v13 main_v16
-- ==== Kernel.lean ====
abbrev S32768x1024 : Shape := ⟨2, ![32768, 1024]⟩
abbrev S3072 : Shape := ⟨1, ![3072]⟩
abbrev S3072x1024 : Shape := ⟨2, ![3072, 1024]⟩
abbrev S1024 : Shape := ⟨1, ![1024]⟩
abbrev S1024x3 : Shape := ⟨2, ![1024, 3]⟩
abbrev S3 : Shape := ⟨1, ![3]⟩
abbrev S3072x1 : Shape := ⟨2, ![3072, 1]⟩
abbrev S1x3072 : Shape := ⟨2, ![1, 3072]⟩
abbrev S1x1024 : Shape := ⟨2, ![1, 1024]⟩
abbrev S_ : Shape := ⟨0, ![]⟩
abbrev S1024x1024 : Shape := ⟨2, ![1024, 1024]⟩
abbrev S1x3 : Shape := ⟨2, ![1, 3]⟩
abbrev S512x1024 : Shape := ⟨2, ![512, 1024]⟩
abbrev S512 : Shape := ⟨1, ![512]⟩
abbrev S512x1 : Shape := ⟨2, ![512, 1]⟩
abbrev S512x3 : Shape := ⟨2, ![512, 3]⟩

abbrev nBuf : Space → Nat
  | .hbm => 29
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S3072, .f32⟩
  | .hbm, ⟨4, _⟩ => ⟨S3072, .f32⟩
  | .hbm, ⟨5, _⟩ => ⟨S3072x1024, .f32⟩
  | .hbm, ⟨6, _⟩ => ⟨S1024, .f32⟩
  | .hbm, ⟨7, _⟩ => ⟨S1024x3, .f32⟩
  | .hbm, ⟨8, _⟩ => ⟨S3, .f32⟩
  | .hbm, ⟨9, _⟩ => ⟨S3072x1, .f32⟩
  | .hbm, ⟨10, _⟩ => ⟨S3072x1024, .f32⟩
  | .hbm, ⟨11, _⟩ => ⟨S3072x1024, .f32⟩
  | .hbm, ⟨12, _⟩ => ⟨S1x3072, .f32⟩
  | .hbm, ⟨13, _⟩ => ⟨S1x1024, .f32⟩
  | .hbm, ⟨14, _⟩ => ⟨S1024, .f32⟩
  | .hbm, ⟨15, _⟩ => ⟨S1024, .f32⟩
  | .hbm, ⟨16, _⟩ => ⟨S_, .f32⟩
  | .hbm, ⟨17, _⟩ => ⟨S1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .bf16⟩
  | .hbm, ⟨22, _⟩ => ⟨S1024x1024, .bf16⟩
  | .hbm, ⟨23, _⟩ => ⟨S1024x1024, .bf16⟩
  | .hbm, ⟨24, _⟩ => ⟨S1024x3, .bf16⟩
  | .hbm, ⟨25, _⟩ => ⟨S1x1024, .f32⟩
  | .hbm, ⟨26, _⟩ => ⟨S1x1024, .f32⟩
  | .hbm, ⟨27, _⟩ => ⟨S1x3, .f32⟩
  | .hbm, ⟨28, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x3, .bf16⟩
  | .local _ .vmem, ⟨12, _⟩ => ⟨S1x3, .f32⟩
  | .local _ .vmem, ⟨13, _⟩ => ⟨S512x1024, .f32⟩
  | .local _ .vmem, ⟨14, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x3 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S3072_S3072x1 : S3072.ShapeCasts S3072x1
  bcast_S3072x1_S3072x1024_0_1 : S3072x1.BroadcastsInDim S3072x1024 (![0, 1] : Fin 2 → Fin S3072x1024.rank)
  shapeCasts_S3072_S1x3072 : S3072.ShapeCasts S1x3072
  shapeCasts_S1x1024_S1024 : S1x1024.ShapeCasts S1024
  reducesTo_S3072x1024_S1024_d0 : S3072x1024.ReducesTo [0] S1024
  h_S_ : 0 < S_.numel
  slices_S3072x1024_S1024x1024_0_0 : S3072x1024.Slices ![0, 0] S1024x1024
  slices_S3072x1024_S1024x1024_1024_0 : S3072x1024.Slices ![1024, 0] S1024x1024
  slices_S3072x1024_S1024x1024_2048_0 : S3072x1024.Slices ![2048, 0] S1024x1024
  bitsLt_bf16_f32 : FTy.bits .bf16 < FTy.bits .f32
  shapeCasts_S1024_S1x1024 : S1024.ShapeCasts S1x1024
  shapeCasts_S3_S1x3 : S3.ShapeCasts S1x3
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S512x3 : S1x3.Broadcasts S512x3
  reduces_S512x3_S512 : S512x3.Reduces [1] S512
  broadcasts_S512x1_S512x3 : S512x1.Broadcasts S512x3
  slices_S512x3_o0_0_S512x1 : S512x3.Slices ![0, 0] S512x1
  slices_S512x3_o0_1_S512x1 : S512x3.Slices ![0, 1] S512x1
  slices_S512x3_o0_2_S512x1 : S512x3.Slices ![0, 2] S512x1
  dot_S1x3072_S3072x1024_S1x1024_1_0_0_1_n_n_wf : DotDims.WF S1x3072 S3072x1024 S1x1024 [1] [0] [0] [1] [] []
  dot_S512x1024_S1024x1024_S512x1024_1_0_0_1_n_n_wf : DotDims.WF S512x1024 S1024x1024 S512x1024 [1] [0] [0] [1] [] []
  dot_S512x1024_S1024x3_S512x3_1_0_0_1_n_n_wf : DotDims.WF S512x1024 S1024x3 S512x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S32768x1024.size a
  hwx0_1 : ∀ i : grid0.Coords, EltTy.bits .f32 = 32 ∨ (Rect.block (s := S32768x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S32768x1024.size a
  hwx0_2 : ∀ i : grid0.Coords, EltTy.bits .f32 = 32 ∨ (Rect.block (s := S32768x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x3.size a ≤ S1024x3.size a
  hwx0_8 : ∀ i : grid0.Coords, EltTy.bits .bf16 = 32 ∨ (Rect.block (s := S1024x3) S1024x3.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x3.size a ≤ S1x3.size a
  hwx0_9 : ∀ i : grid0.Coords, EltTy.bits .f32 = 32 ∨ (Rect.block (s := S1x3) S1x3.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1024.size a ≤ S32768x1024.size a
  hwx0_10 : ∀ i : grid0.Coords, EltTy.bits .f32 = 32 ∨ (Rect.block (s := S32768x1024) S512x1024.size (cc0_transform_10 i) (hinb0_10 i)).WholeWords (EltTy.packing .f32)

variable [Facts₀]

def dot_S1x3072_S3072x1024_S1x1024_1_0_0_1_n_n : DotDims S1x3072 S3072x1024 S1x1024 where
  lhsContracting := [1]
  rhsContracting := [0]
  lhsNonContracting := [0]
  rhsNonContracting := [1]
  lhsBatch := []
  rhsBatch := []
  wf := dot_S1x3072_S3072x1024_S1x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x3_S512x3_1_0_0_1_n_n : DotDims S512x1024 S1024x3 S512x3 where
  lhsContracting := [1]
  rhsContracting := [0]
  lhsNonContracting := [0]
  rhsNonContracting := [1]
  lhsBatch := []
  rhsBatch := []
  wf := dot_S512x1024_S1024x3_S512x3_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S1024x3.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S1x3.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S512x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S3072 : Shape := ⟨1, ![3072]⟩
abbrev S3072x1024 : Shape := ⟨2, ![3072, 1024]⟩
abbrev S1024 : Shape := ⟨1, ![1024]⟩
abbrev S1024x3 : Shape := ⟨2, ![1024, 3]⟩
abbrev S3 : Shape := ⟨1, ![3]⟩
abbrev S32768x3072 : Shape := ⟨2, ![32768, 3072]⟩
abbrev S_ : Shape := ⟨0, ![]⟩
abbrev S32768 : Shape := ⟨1, ![32768]⟩
abbrev S32768x1 : Shape := ⟨2, ![32768, 1]⟩
abbrev S1x3072 : Shape := ⟨2, ![1, 3072]⟩
abbrev S1x1024 : Shape := ⟨2, ![1, 1024]⟩
abbrev S32768x3 : Shape := ⟨2, ![32768, 3]⟩
abbrev S1x3 : Shape := ⟨2, ![1, 3]⟩

abbrev nBuf : Space → Nat
  | .hbm => 75
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S3072, .f32⟩
  | .hbm, ⟨4, _⟩ => ⟨S3072, .f32⟩
  | .hbm, ⟨5, _⟩ => ⟨S3072x1024, .f32⟩
  | .hbm, ⟨6, _⟩ => ⟨S1024, .f32⟩
  | .hbm, ⟨7, _⟩ => ⟨S1024x3, .f32⟩
  | .hbm, ⟨8, _⟩ => ⟨S3, .f32⟩
  | .hbm, ⟨9, _⟩ => ⟨S32768x3072, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x3072, .f32⟩
  | .hbm, ⟨17, _⟩ => ⟨S32768x3072, .f32⟩
  | .hbm, ⟨18, _⟩ => ⟨S32768x3072, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x3072, .f32⟩
  | .hbm, ⟨26, _⟩ => ⟨S32768x3072, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S32768x1, .f32⟩
  | .hbm, ⟨31, _⟩ => ⟨S32768x3072, .f32⟩
  | .hbm, ⟨32, _⟩ => ⟨S32768x3072, .f32⟩
  | .hbm, ⟨33, _⟩ => ⟨S1x3072, .f32⟩
  | .hbm, ⟨34, _⟩ => ⟨S32768x3072, .f32⟩
  | .hbm, ⟨35, _⟩ => ⟨S32768x3072, .f32⟩
  | .hbm, ⟨36, _⟩ => ⟨S1x3072, .f32⟩
  | .hbm, ⟨37, _⟩ => ⟨S32768x3072, .f32⟩
  | .hbm, ⟨38, _⟩ => ⟨S32768x3072, .f32⟩
  | .hbm, ⟨39, _⟩ => ⟨S32768x1024, .f32⟩
  | .hbm, ⟨40, _⟩ => ⟨S1x1024, .f32⟩
  | .hbm, ⟨41, _⟩ => ⟨S32768x1024, .f32⟩
  | .hbm, ⟨42, _⟩ => ⟨S32768x1024, .f32⟩
  | .hbm, ⟨43, _⟩ => ⟨S_, .f32⟩
  | .hbm, ⟨44, _⟩ => ⟨S32768x1024, .f32⟩
  | .hbm, ⟨45, _⟩ => ⟨S32768x1024, .f32⟩
  | .hbm, ⟨46, _⟩ => ⟨S32768x3, .f32⟩
  | .hbm, ⟨47, _⟩ => ⟨S1x3, .f32⟩
  | .hbm, ⟨48, _⟩ => ⟨S32768x3, .f32⟩
  | .hbm, ⟨49, _⟩ => ⟨S32768x3, .f32⟩
  | .hbm, ⟨50, _⟩ => ⟨S_, .f32⟩
  | .hbm, ⟨51, _⟩ => ⟨S32768, .f32⟩
  | .hbm, ⟨52, _⟩ => ⟨S_, .f32⟩
  | .hbm, ⟨53, _⟩ => ⟨S32768, .f32⟩
  | .hbm, ⟨54, _⟩ => ⟨S32768, .f32⟩
  | .hbm, ⟨55, _⟩ => ⟨S32768x1, .f32⟩
  | .hbm, ⟨56, _⟩ => ⟨S32768x3, .f32⟩
  | .hbm, ⟨57, _⟩ => ⟨S32768x3, .f32⟩
  | .hbm, ⟨58, _⟩ => ⟨S32768x3, .f32⟩
  | .hbm, ⟨59, _⟩ => ⟨S_, .f32⟩
  | .hbm, ⟨60, _⟩ => ⟨S32768, .f32⟩
  | .hbm, ⟨61, _⟩ => ⟨S32768x1, .f32⟩
  | .hbm, ⟨62, _⟩ => ⟨S32768x3, .f32⟩
  | .hbm, ⟨63, _⟩ => ⟨S32768x3, .f32⟩
  | .hbm, ⟨64, _⟩ => ⟨S32768x1, .f32⟩
  | .hbm, ⟨65, _⟩ => ⟨S32768x1024, .f32⟩
  | .hbm, ⟨66, _⟩ => ⟨S32768x1024, .f32⟩
  | .hbm, ⟨67, _⟩ => ⟨S32768x1, .f32⟩
  | .hbm, ⟨68, _⟩ => ⟨S32768x1024, .f32⟩
  | .hbm, ⟨69, _⟩ => ⟨S32768x1024, .f32⟩
  | .hbm, ⟨70, _⟩ => ⟨S32768x1024, .f32⟩
  | .hbm, ⟨71, _⟩ => ⟨S32768x1, .f32⟩
  | .hbm, ⟨72, _⟩ => ⟨S32768x1024, .f32⟩
  | .hbm, ⟨73, _⟩ => ⟨S32768x1024, .f32⟩
  | .hbm, ⟨74, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]

class Facts₀ : Prop where
  concatenates_S32768x1024_S32768x1024_S32768x1024_S32768x3072_d1 : Shape.Concatenates [S32768x1024, S32768x1024, S32768x1024] S32768x3072 1
  reducesTo_S32768x3072_S32768_d1 : S32768x3072.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x3072_0_1 : S32768x1.BroadcastsInDim S32768x3072 (![0, 1] : Fin 2 → Fin S32768x3072.rank)
  bcast_S3072_S1x3072_1 : S3072.BroadcastsInDim S1x3072 (![1] : Fin 1 → Fin S1x3072.rank)
  bcast_S1x3072_S32768x3072_0_1 : S1x3072.BroadcastsInDim S32768x3072 (![0, 1] : Fin 2 → Fin S32768x3072.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  bcast_S3_S1x3_1 : S3.BroadcastsInDim S1x3 (![1] : Fin 1 → Fin S1x3.rank)
  bcast_S1x3_S32768x3_0_1 : S1x3.BroadcastsInDim S32768x3 (![0, 1] : Fin 2 → Fin S32768x3.rank)
  reducesTo_S32768x3_S32768_d1 : S32768x3.ReducesTo [1] S32768
  bcast_S_S32768 : S_.BroadcastsInDim S32768 (![] : Fin 0 → Fin S32768.rank)
  bcast_S32768x1_S32768x3_0_1 : S32768x1.BroadcastsInDim S32768x3 (![0, 1] : Fin 2 → Fin S32768x3.rank)
  slices_S32768x3_S32768x1_0_0 : S32768x3.Slices ![0, 0] S32768x1
  bcast_S32768x1_S32768x1024_0_1 : S32768x1.BroadcastsInDim S32768x1024 (![0, 1] : Fin 2 → Fin S32768x1024.rank)
  slices_S32768x3_S32768x1_0_1 : S32768x3.Slices ![0, 1] S32768x1
  slices_S32768x3_S32768x1_0_2 : S32768x3.Slices ![0, 2] S32768x1
  dot_S32768x3072_S3072x1024_S32768x1024_1_0_0_1_n_n_wf : DotDims.WF S32768x3072 S3072x1024 S32768x1024 [1] [0] [0] [1] [] []
  dot_S32768x1024_S1024x3_S32768x3_1_0_0_1_n_n_wf : DotDims.WF S32768x1024 S1024x3 S32768x3 [1] [0] [0] [1] [] []

variable [Facts₀]

def dot_S32768x3072_S3072x1024_S32768x1024_1_0_0_1_n_n : DotDims S32768x3072 S3072x1024 S32768x1024 where
  lhsContracting := [1]
  rhsContracting := [0]
  lhsNonContracting := [0]
  rhsNonContracting := [1]
  lhsBatch := []
  rhsBatch := []
  wf := dot_S32768x3072_S3072x1024_S32768x1024_1_0_0_1_n_n_wf
def dot_S32768x1024_S1024x3_S32768x3_1_0_0_1_n_n : DotDims S32768x1024 S1024x3 S32768x3 where
  lhsContracting := [1]
  rhsContracting := [0]
  lhsNonContracting := [0]
  rhsNonContracting := [1]
  lhsBatch := []
  rhsBatch := []
  wf := dot_S32768x1024_S1024x3_S32768x3_1_0_0_1_n_n_wf

class Facts : Prop extends Facts₀ where

variable [Facts]
-- ==== Proof.Consts.lean ====
/-
  The float patterns the two programs spell, as the extended reals they denote: the zero that sums and
  matrix products start from, the reference's divisor 3072, the variance's epsilon (a positive dyadic
  rational), and the minus infinity a row maximum starts from. Stated once, so that no other module
  unfolds a bit pattern.
-/
import Idealize.ShloMosaic.PureOps.Ideal

noncomputable section

namespace GatedFusion.Consts

open Idealize.ShloMosaic

/-- The pattern of `+0.0` denotes `0`. -/
theorem ofBits_zero : Ideal.ofBits .f32 0x00000000#32 = 0 := by
  simp [Ideal.ofBits, Ideal.ieee]

/-- The reference's divisor, the row length `3072.0`, denotes the real `3072`. -/
theorem ofBits_3072 : Ideal.ofBits .f32 0x45400000#32 = ((3072 : ℝ) : EReal) := by
  simp [Ideal.ofBits, Ideal.ieee, -EReal.coe_mul]; norm_num

/-- The pattern a row maximum starts from denotes `-∞`, the bottom of the extended reals. -/
theorem ofBits_ninf : Ideal.ofBits .f32 0xFF800000#32 = ⊥ := by
  simp [Ideal.ofBits, Ideal.ieee]

/-- The epsilon added to the variance, as a real number: `10995116 · 2⁻⁴⁰`. -/
def epsR : ℝ := 10995116 / 1099511627776

theorem epsR_pos : 0 < epsR := by unfold epsR; norm_num

/-- The epsilon's pattern denotes that real. -/
theorem ofBits_eps : Ideal.ofBits .f32 0x3727C5AC#32 = ((epsR : ℝ) : EReal) := by
  unfold epsR
  simp [Ideal.ofBits, Ideal.ieee, -EReal.coe_mul]; norm_num

end GatedFusion.Consts

end
-- ==== Proof.RowMath.lean ====
/-
  The mathematics of the gated fusion, over plain index types: one row of the three inputs
  `s, t, f` (1024 entries each) is normalised as ONE row of 3072 entries, sent through a linear
  layer, a relu, a second linear layer to three logits and a softmax, and the three weights mix the
  row's entries of `s, t, f`.

  The kernel and the reference differ only in how the hidden pre-activation is computed. The
  reference normalises first: `Σ_k ((c_k - μ)·σ·w_k + β_k)·W_kq + b_q` with the two-pass variance
  `Σ_k (c_k - μ)² / 3072`. The kernel folds the affine map into the weights,
  `σ·(Σ_k c_k·(w_k·W_kq) - μ·Σ_k w_k·W_kq) + (b_q + Σ_k β_k·W_kq)`, sums each third of the row
  separately, multiplies by `1/3072` where the reference divides by `3072`, and takes the one-pass
  variance `max (Σ_k c_k²/3072 - μ², 0)`. On FINITE entries these are one number: the one-pass
  variance is the two-pass one (which is a mean of squares, so the clamp at zero does nothing), and
  the rest is distributivity, which the extended reals have on finite values only.
-/
import Idealize.ShloMosaic.PureOps.Ideal
import Idealize.ShloMosaic.Lib.ValueIdx
import proofs.«403387_j69784628625675_3_alg».proof.Proof.Consts

noncomputable section

namespace GatedFusion

open Idealize.ShloMosaic GatedFusion.Consts

/-! ## A row of 3072 as three rows of 1024 -/

/-- Position `j` of the first third. -/
def lo (j : Fin 1024) : Fin 3072 := ⟨j.val, by omega⟩
/-- Position `j` of the second third. -/
def mid (j : Fin 1024) : Fin 3072 := ⟨1024 + j.val, by omega⟩
/-- Position `j` of the last third. -/
def hi (j : Fin 1024) : Fin 3072 := ⟨2048 + j.val, by omega⟩

/-- Three rows of 1024 laid end to end. -/
def cat {α : Type} (s t f : Fin 1024 → α) (k : Fin 3072) : α :=
  if h1 : k.val < 1024 then s ⟨k.val, h1⟩
  else if h2 : k.val < 2048 then t ⟨k.val - 1024, by omega⟩
  else f ⟨k.val - 2048, by omega⟩

theorem cat_lo {α : Type} (s t f : Fin 1024 → α) (j : Fin 1024) : cat s t f (lo j) = s j := by
  unfold cat lo
  rw [dif_pos j.isLt]

theorem cat_mid {α : Type} (s t f : Fin 1024 → α) (j : Fin 1024) : cat s t f (mid j) = t j := by
  unfold cat mid
  have h : ¬ (1024 + j.val < 1024) := by omega
  have h2 : 1024 + j.val < 2048 := by omega
  rw [dif_neg h, dif_pos h2]
  exact congrArg t (Fin.ext (by show 1024 + j.val - 1024 = j.val; omega))

theorem cat_hi {α : Type} (s t f : Fin 1024 → α) (j : Fin 1024) : cat s t f (hi j) = f j := by
  unfold cat hi
  have h : ¬ (2048 + j.val < 1024) := by omega
  have h2 : ¬ (2048 + j.val < 2048) := by omega
  rw [dif_neg h, dif_neg h2]
  exact congrArg f (Fin.ext (by show 2048 + j.val - 2048 = j.val; omega))

/-- A map applied entrywise commutes with laying the rows end to end. -/
theorem cat_map {α β : Type} (g : α → β) (s t f : Fin 1024 → α) (k : Fin 3072) :
    cat (fun j => g (s j)) (fun j => g (t j)) (fun j => g (f j)) k = g (cat s t f k) := by
  unfold cat
  split_ifs <;> rfl

/-- A sum over the long row is the sum of the sums over its thirds. -/
theorem sum_thirds {M : Type} [AddCommMonoid M] (g : Fin 3072 → M) :
    ∑ k, g k = ((∑ j, g (lo j)) + ∑ j, g (mid j)) + ∑ j, g (hi j) := by
  have h1 := Fin.sum_univ_add (a := 2048) (b := 1024) (fun i : Fin (2048 + 1024) => g ⟨i.val, i.isLt⟩)
  have h2 := Fin.sum_univ_add (a := 1024) (b := 1024)
    (fun i : Fin (1024 + 1024) => g ⟨i.val, by have := i.isLt; omega⟩)
  refine h1.trans ?_
  refine congrArg₂ (· + ·) (h2.trans ?_) ?_
  · exact congrArg₂ (· + ·) rfl rfl
  · rfl

/-! ## Sums of finite numbers are finite -/

/-- The sum of real numbers, read in the extended reals, is the real sum. -/
theorem coe_sum {ι : Type} (S : Finset ι) (g : ι → ℝ) : ∑ k ∈ S, ((g k : ℝ) : EReal) = ((∑ k ∈ S, g k : ℝ) : EReal) := by
  classical
  induction S using Finset.induction_on with
  | empty => simp
  | insert a S ha ih => rw [Finset.sum_insert ha, Finset.sum_insert ha, ih, EReal.coe_add]

/-! ## The two hidden pre-activations, and the gate -/

/-- The hidden pre-activation of column `q` as the KERNEL computes it from the three thirds `s, t, f` of a row, the
    affine map folded into the weights: `Ws, Wt, Wf` are the three blocks of `w_k·W_kq`, `r` their column sums
    `Σ_k w_k·W_kq`, `bp` the folded bias `b_q + Σ_k β_k·W_kq`. -/
def preK (s t f : Fin 1024 → EReal) (Ws Wt Wf : Fin 1024 → Fin 1024 → EReal) (r bp : Fin 1024 → EReal) (q : Fin 1024) : EReal :=
  Ideal.rsqrt (max ((((∑ j, s j * s j) + ∑ j, t j * t j) + ∑ j, f j * f j) * ((1 / 3072 : ℝ) : EReal)
        - (((∑ j, s j) + ∑ j, t j) + ∑ j, f j) * ((1 / 3072 : ℝ) : EReal) * ((((∑ j, s j) + ∑ j, t j) + ∑ j, f j) * ((1 / 3072 : ℝ) : EReal))) 0
      + (epsR : EReal))
    * ((((∑ j, s j * Ws j q) + ∑ j, t j * Wt j q) + ∑ j, f j * Wf j q)
        - (((∑ j, s j) + ∑ j, t j) + ∑ j, f j) * ((1 / 3072 : ℝ) : EReal) * r q)
    + bp q

/-- The same pre-activation as the REFERENCE computes it from the whole row `c`: mean, two-pass variance,
    normalisation, the affine map `w, β`, then the linear layer `W, b`. -/
def preR (c w β : Fin 3072 → EReal) (W : Fin 3072 → Fin 1024 → EReal) (b : Fin 1024 → EReal) (q : Fin 1024) : EReal :=
  (∑ k, ((c k - Ideal.div (0 + ∑ k', c k') ((3072 : ℝ) : EReal))
        * Ideal.rsqrt (Ideal.div (0 + ∑ k', (c k' - Ideal.div (0 + ∑ k'', c k'') ((3072 : ℝ) : EReal))
              * (c k' - Ideal.div (0 + ∑ k'', c k'') ((3072 : ℝ) : EReal))) ((3072 : ℝ) : EReal) + (epsR : EReal))
        * w k + β k) * W k q)
    + b q

/-- The three logits of a row from its hidden pre-activations `y`: relu, then the second linear layer. -/
def logit (y : Fin 1024 → EReal) (W2 : Fin 1024 → Fin 3 → EReal) (b2 : Fin 3 → EReal) (a : Fin 3) : EReal :=
  (∑ q, max (y q) 0 * W2 q a) + b2 a

/-- The largest of three logits, as a fold of `max` from `-∞`. -/
def rowMax (l : Fin 3 → EReal) : EReal := (Finset.univ : Finset (Fin 3)).fold max ⊥ l

/-- The softmax weight of logit `a` among the three. -/
def gate (l : Fin 3 → EReal) (a : Fin 3) : EReal :=
  Ideal.div (Ideal.exp (l a - rowMax l)) (∑ a', Ideal.exp (l a' - rowMax l))

/-! ## Reading finite values -/

/-- The larger of two reals, read in the extended reals, is the larger of the two readings. -/
theorem coe_max (x y : ℝ) : ((max x y : ℝ) : EReal) = max (x : EReal) (y : EReal) :=
  EReal.coe_strictMono.monotone.map_max

/-- The reciprocal square root of a positive real is a real. -/
theorem rsqrt_coe_pos {x : ℝ} (h : 0 < x) : Ideal.rsqrt (x : EReal) = (((Real.sqrt x)⁻¹ : ℝ) : EReal) := by
  rw [Ideal.rsqrt_coe, if_neg (not_lt.mpr h.le), if_neg h.ne']

/-- Dividing a real by 3072 in the extended reals. -/
theorem div_3072 (x : ℝ) : Ideal.div (x : EReal) ((3072 : ℝ) : EReal) = ((x * (1 / 3072) : ℝ) : EReal) := by
  rw [Ideal.div_coe (by norm_num : (3072 : ℝ) ≠ 0), ← EReal.coe_mul]

/-! ## The law between the two pre-activations, over the reals -/

/-- The one-pass variance, clamped at zero, is the two-pass variance. -/
theorem var_one_pass (c : Fin 3072 → ℝ) :
    max ((∑ k, c k * c k) * (1 / 3072) - (∑ k, c k) * (1 / 3072) * ((∑ k, c k) * (1 / 3072))) 0
      = (∑ k, (c k - (∑ k', c k') * (1 / 3072)) * (c k - (∑ k', c k') * (1 / 3072))) * (1 / 3072) := by
  have hexp : ∑ k, (c k - (∑ k', c k') * (1 / 3072)) * (c k - (∑ k', c k') * (1 / 3072))
      = (∑ k, c k * c k) - (∑ k, c k) * (1 / 3072) * (∑ k, c k) := by
    have hk : ∀ k, (c k - (∑ k', c k') * (1 / 3072)) * (c k - (∑ k', c k') * (1 / 3072))
        = c k * c k - 2 * ((∑ k', c k') * (1 / 3072)) * c k + (∑ k', c k') * (1 / 3072) * ((∑ k', c k') * (1 / 3072)) := fun k => by ring
    rw [Finset.sum_congr rfl fun k _ => hk k, Finset.sum_add_distrib, Finset.sum_sub_distrib, ← Finset.mul_sum,
      Finset.sum_const, Finset.card_univ, Fintype.card_fin, nsmul_eq_mul]
    push_cast
    ring
  have hnn : 0 ≤ (∑ k, (c k - (∑ k', c k') * (1 / 3072)) * (c k - (∑ k', c k') * (1 / 3072))) * (1 / 3072) :=
    mul_nonneg (Finset.sum_nonneg fun k _ => mul_self_nonneg _) (by norm_num)
  have heq : (∑ k, c k * c k) * (1 / 3072) - (∑ k, c k) * (1 / 3072) * ((∑ k, c k) * (1 / 3072))
      = (∑ k, (c k - (∑ k', c k') * (1 / 3072)) * (c k - (∑ k', c k') * (1 / 3072))) * (1 / 3072) := by
    rw [hexp]; ring
  rw [heq]
  exact max_eq_left hnn

/-- The affine map folded into the weights: for any mean `μ` and scale `σ`. -/
theorem fold_affine (c w β W : Fin 3072 → ℝ) (μ σ b : ℝ) :
    σ * ((∑ k, c k * (w k * W k)) - μ * ∑ k, w k * W k) + (b + ∑ k, β k * W k)
      = (∑ k, ((c k - μ) * σ * w k + β k) * W k) + b := by
  have hk : ∀ k, ((c k - μ) * σ * w k + β k) * W k = σ * (c k * (w k * W k)) - σ * μ * (w k * W k) + β k * W k := fun k => by ring
  rw [Finset.sum_congr rfl fun k _ => hk k, Finset.sum_add_distrib, Finset.sum_sub_distrib, ← Finset.mul_sum, ← Finset.mul_sum]
  ring

/-! ## The two pre-activations on finite entries are real numbers, and the same one -/

/-- The kernel's pre-activation, computed in the reals. -/
def preKr (s t f : Fin 1024 → ℝ) (Ws Wt Wf : Fin 1024 → Fin 1024 → ℝ) (r bp : Fin 1024 → ℝ) (q : Fin 1024) : ℝ :=
  (Real.sqrt (max ((((∑ j, s j * s j) + ∑ j, t j * t j) + ∑ j, f j * f j) * (1 / 3072)
        - (((∑ j, s j) + ∑ j, t j) + ∑ j, f j) * (1 / 3072) * ((((∑ j, s j) + ∑ j, t j) + ∑ j, f j) * (1 / 3072))) 0
      + epsR))⁻¹
    * ((((∑ j, s j * Ws j q) + ∑ j, t j * Wt j q) + ∑ j, f j * Wf j q)
        - (((∑ j, s j) + ∑ j, t j) + ∑ j, f j) * (1 / 3072) * r q)
    + bp q

/-- The reference's pre-activation, computed in the reals. -/
def preRr (c w β : Fin 3072 → ℝ) (W : Fin 3072 → Fin 1024 → ℝ) (b : Fin 1024 → ℝ) (q : Fin 1024) : ℝ :=
  (∑ k, ((c k - (0 + ∑ k', c k') * (1 / 3072))
        * (Real.sqrt ((0 + ∑ k', (c k' - (0 + ∑ k'', c k'') * (1 / 3072)) * (c k' - (0 + ∑ k'', c k'') * (1 / 3072))) * (1 / 3072) + epsR))⁻¹
        * w k + β k) * W k q)
    + b q

/-- On finite entries the kernel's pre-activation is its real twin: every sum, product and difference stays finite, the
    clamped variance plus epsilon is positive, so its reciprocal square root is a real. -/
theorem preK_coe (s t f : Fin 1024 → ℝ) (Ws Wt Wf : Fin 1024 → Fin 1024 → ℝ) (r bp : Fin 1024 → ℝ) (q : Fin 1024) :
    preK (fun j => (s j : EReal)) (fun j => (t j : EReal)) (fun j => (f j : EReal)) (fun j q => (Ws j q : EReal))
        (fun j q => (Wt j q : EReal)) (fun j q => (Wf j q : EReal)) (fun q => (r q : EReal)) (fun q => (bp q : EReal)) q
      = ((preKr s t f Ws Wt Wf r bp q : ℝ) : EReal) := by
  unfold preK preKr
  simp only [← EReal.coe_mul, coe_sum, ← EReal.coe_add, ← EReal.coe_sub, ← EReal.coe_zero, ← coe_max]
  rw [rsqrt_coe_pos (add_pos_of_nonneg_of_pos (le_max_right _ _) epsR_pos)]
  simp only [← EReal.coe_mul, ← EReal.coe_add]

/-- On finite entries the reference's pre-activation is its real twin: the two-pass variance is a mean of squares, so
    with epsilon it is positive. -/
theorem preR_coe (c w β : Fin 3072 → ℝ) (W : Fin 3072 → Fin 1024 → ℝ) (b : Fin 1024 → ℝ) (q : Fin 1024) :
    preR (fun k => (c k : EReal)) (fun k => (w k : EReal)) (fun k => (β k : EReal)) (fun k q => (W k q : EReal)) (fun q => (b q : EReal)) q
      = ((preRr c w β W b q : ℝ) : EReal) := by
  unfold preR preRr
  simp only [coe_sum, ← EReal.coe_zero, ← EReal.coe_add, div_3072, ← EReal.coe_sub, ← EReal.coe_mul]
  rw [rsqrt_coe_pos (add_pos_of_nonneg_of_pos (mul_nonneg (by
    rw [zero_add]; exact Finset.sum_nonneg fun k _ => mul_self_nonneg _) (by norm_num)) epsR_pos)]
  simp only [coe_sum, ← EReal.coe_mul, ← EReal.coe_add, ← EReal.coe_sub]

/-- Over the reals the two pre-activations agree: the row's sums are the sums of its thirds, the one-pass variance is
    the two-pass one, and the affine map folds into the weights. -/
theorem preKr_eq_preRr (s t f : Fin 1024 → ℝ) (w β : Fin 3072 → ℝ) (W : Fin 3072 → Fin 1024 → ℝ) (b : Fin 1024 → ℝ) (q : Fin 1024) :
    preKr s t f (fun j q => w (lo j) * W (lo j) q) (fun j q => w (mid j) * W (mid j) q) (fun j q => w (hi j) * W (hi j) q)
        (fun q => ∑ k, w k * W k q) (fun q => b q + ∑ k, β k * W k q) q
      = preRr (cat s t f) w β W b q := by
  unfold preKr preRr
  have h1 : ((∑ j, s j) + ∑ j, t j) + ∑ j, f j = ∑ k, cat s t f k := by
    rw [sum_thirds]; simp only [cat_lo, cat_mid, cat_hi]
  have h2 : ((∑ j, s j * s j) + ∑ j, t j * t j) + ∑ j, f j * f j = ∑ k, cat s t f k * cat s t f k := by
    rw [sum_thirds]; simp only [cat_lo, cat_mid, cat_hi]
  have h3 : ((∑ j, s j * (w (lo j) * W (lo j) q)) + ∑ j, t j * (w (mid j) * W (mid j) q)) + ∑ j, f j * (w (hi j) * W (hi j) q)
      = ∑ k, cat s t f k * (w k * W k q) := by
    rw [sum_thirds]; simp only [cat_lo, cat_mid, cat_hi]
  simp only [zero_add]
  rw [h1, h2, h3, var_one_pass]
  exact fold_affine (cat s t f) w β (fun k => W k q) _ _ _

/-- THE LAW. On finite entries the kernel's hidden pre-activation — from the three thirds of the row, with the folded
    weights `w_k·W_kq`, their column sums and the folded bias — is the reference's, from the whole row. -/
theorem preK_eq_preR (s t f : Fin 1024 → ℝ) (w β : Fin 3072 → ℝ) (W : Fin 3072 → Fin 1024 → ℝ) (b : Fin 1024 → ℝ) (q : Fin 1024) :
    preK (fun j => (s j : EReal)) (fun j => (t j : EReal)) (fun j => (f j : EReal))
        (fun j q => (w (lo j) : EReal) * (W (lo j) q : EReal)) (fun j q => (w (mid j) : EReal) * (W (mid j) q : EReal))
        (fun j q => (w (hi j) : EReal) * (W (hi j) q : EReal))
        (fun q => ∑ k, (w k : EReal) * (W k q : EReal)) (fun q => (b q : EReal) + ∑ k, (β k : EReal) * (W k q : EReal)) q
      = preR (fun k => ((cat s t f k : ℝ) : EReal)) (fun k => (w k : EReal)) (fun k => (β k : EReal)) (fun k q => (W k q : EReal))
          (fun q => (b q : EReal)) q := by
  simp only [← EReal.coe_mul, coe_sum, ← EReal.coe_add]
  rw [preK_coe, preR_coe, preKr_eq_preRr]

/-! ## The whole computation, as one function of the nine argument arrays -/

open Idealize.ShloMosaic.ValueIdx

/-- Row `p` of a `32768 × 1024` input, as a function of the column. -/
def rowOf (x : (⟨2, ![32768, 1024]⟩ : Shape).Idx → EReal) (p : Fin 32768) : Fin 1024 → EReal := fun j => x (ix2 p j)

section Arrays

variable (x0 x1 x2 : (⟨2, ![32768, 1024]⟩ : Shape).Idx → EReal) (x3 x4 : (⟨1, ![3072]⟩ : Shape).Idx → EReal)
  (x5 : (⟨2, ![3072, 1024]⟩ : Shape).Idx → EReal) (x6 : (⟨1, ![1024]⟩ : Shape).Idx → EReal)
  (x7 : (⟨2, ![1024, 3]⟩ : Shape).Idx → EReal) (x8 : (⟨1, ![3]⟩ : Shape).Idx → EReal)

/-- The three logits of row `p`, the pre-activation in the reference's form. -/
def lgRef (p : Fin 32768) : Fin 3 → EReal :=
  logit (preR (cat (rowOf x0 p) (rowOf x1 p) (rowOf x2 p)) (fun k => x3 (ix1 k)) (fun k => x4 (ix1 k))
      (fun k q => x5 (ix2 k q)) (fun q => x6 (ix1 q)))
    (fun q a => x7 (ix2 q a)) (fun a => x8 (ix1 a))

/-- The three logits of row `p`, the pre-activation in the kernel's form: the folded weights `w_k·W_kq` in three
    blocks, their column sums, and the folded bias. -/
def lgKer (p : Fin 32768) : Fin 3 → EReal :=
  logit (preK (rowOf x0 p) (rowOf x1 p) (rowOf x2 p)
      (fun j q => x3 (ix1 (lo j)) * x5 (ix2 (lo j) q)) (fun j q => x3 (ix1 (mid j)) * x5 (ix2 (mid j) q))
      (fun j q => x3 (ix1 (hi j)) * x5 (ix2 (hi j) q))
      (fun q => ∑ k, x3 (ix1 k) * x5 (ix2 k q)) (fun q => x6 (ix1 q) + ∑ k, x4 (ix1 k) * x5 (ix2 k q)))
    (fun q a => x7 (ix2 q a)) (fun a => x8 (ix1 a))

/-- THE RESULT: at `(p, q)` the three softmax weights of row `p` mix the entries of `s, t, f` there. -/
def out : (⟨2, ![32768, 1024]⟩ : Shape).Idx → EReal := fun i =>
  (gate (lgRef x0 x1 x2 x3 x4 x5 x6 x7 x8 (i 0)) 0 * x0 i + gate (lgRef x0 x1 x2 x3 x4 x5 x6 x7 x8 (i 0)) 1 * x1 i)
    + gate (lgRef x0 x1 x2 x3 x4 x5 x6 x7 x8 (i 0)) 2 * x2 i

/-- The same with the logits in the kernel's form. -/
def outKer : (⟨2, ![32768, 1024]⟩ : Shape).Idx → EReal := fun i =>
  (gate (lgKer x0 x1 x2 x3 x4 x5 x6 x7 x8 (i 0)) 0 * x0 i + gate (lgKer x0 x1 x2 x3 x4 x5 x6 x7 x8 (i 0)) 1 * x1 i)
    + gate (lgKer x0 x1 x2 x3 x4 x5 x6 x7 x8 (i 0)) 2 * x2 i

/-- On finite inputs, weights and biases of the normalisation and the first layer, the two forms of the logits agree
    (the second layer's `W2, b2` may be anything: both sides apply the same operations to them). -/
theorem lgKer_eq_lgRef (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal)) (h4 : ∀ i, ∃ r : ℝ, x4 i = (r : EReal))
    (h5 : ∀ i, ∃ r : ℝ, x5 i = (r : EReal)) (h6 : ∀ i, ∃ r : ℝ, x6 i = (r : EReal)) (p : Fin 32768) :
    lgKer x0 x1 x2 x3 x4 x5 x6 x7 x8 p = lgRef x0 x1 x2 x3 x4 x5 x6 x7 x8 p := by
  choose s0 hs0 using h0
  choose s1 hs1 using h1
  choose s2 hs2 using h2
  choose s3 hs3 using h3
  choose s4 hs4 using h4
  choose s5 hs5 using h5
  choose s6 hs6 using h6
  obtain rfl : x0 = fun i => (s0 i : EReal) := funext hs0
  obtain rfl : x1 = fun i => (s1 i : EReal) := funext hs1
  obtain rfl : x2 = fun i => (s2 i : EReal) := funext hs2
  obtain rfl : x3 = fun i => (s3 i : EReal) := funext hs3
  obtain rfl : x4 = fun i => (s4 i : EReal) := funext hs4
  obtain rfl : x5 = fun i => (s5 i : EReal) := funext hs5
  obtain rfl : x6 = fun i => (s6 i : EReal) := funext hs6
  have hc : cat (rowOf (fun i => (s0 i : EReal)) p) (rowOf (fun i => (s1 i : EReal)) p) (rowOf (fun i => (s2 i : EReal)) p)
      = fun k => ((cat (fun j => s0 (ix2 p j)) (fun j => s1 (ix2 p j)) (fun j => s2 (ix2 p j)) k : ℝ) : EReal) :=
    funext fun k => cat_map (fun r : ℝ => (r : EReal)) _ _ _ k
  unfold lgKer lgRef
  rw [hc]
  refine congrArg (fun y => logit y (fun q a => x7 (ix2 q a)) (fun a => x8 (ix1 a))) (funext fun q => ?_)
  exact preK_eq_preR (fun j => s0 (ix2 p j)) (fun j => s1 (ix2 p j)) (fun j => s2 (ix2 p j)) (fun k => s3 (ix1 k))
    (fun k => s4 (ix1 k)) (fun k q => s5 (ix2 k q)) (fun q => s6 (ix1 q)) q

/-- So on such inputs the two forms of the result are one array. -/
theorem outKer_eq_out (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal)) (h4 : ∀ i, ∃ r : ℝ, x4 i = (r : EReal))
    (h5 : ∀ i, ∃ r : ℝ, x5 i = (r : EReal)) (h6 : ∀ i, ∃ r : ℝ, x6 i = (r : EReal)) :
    outKer x0 x1 x2 x3 x4 x5 x6 x7 x8 = out x0 x1 x2 x3 x4 x5 x6 x7 x8 := by
  funext i
  unfold outKer out
  rw [lgKer_eq_lgRef x0 x1 x2 x3 x4 x5 x6 x7 x8 h0 h1 h2 h3 h4 h5 h6 (i 0)]

end Arrays

end GatedFusion

end
-- ==== Proof.RefValue.lean ====
/-
  The reference, read at an index. Row `p` of its concatenated input is the three rows `s p, t p, f p`
  laid end to end; reading its operations one at a time at an index (the generated read lemmas; the
  concatenation and the row maximum by hand) gives, at `(p, q)`, the gated mix of `s, t, f` with the
  softmax weights of the logits of the reference-form pre-activation.
-/
import proofs.«403387_j69784628625675_3_alg».proof.Proof.Gen.ReferenceIdeal.Read
import proofs.«403387_j69784628625675_3_alg».proof.Proof.RowMath
import Idealize.ShloMosaic.Lib.ValueIdx
import Idealize.ShloMosaic.Lib.Pipeline.Value
import Idealize.ShloMosaic.PureOps.Ideal.Laws

noncomputable section

namespace GatedFusion.Ref

open Cert.ReferenceIdeal Cert.ReferenceIdeal.Gen Cert.ReferenceIdeal.Read Idealize.ShloMosaic Idealize.ShloMosaic.ValueIdx GatedFusion GatedFusion.Consts

variable (x0 x1 x2 : (⟨S32768x1024, .f32⟩ : BufTy).Contents (Elt Ideal))
variable (x3 x4 : (⟨S3072, .f32⟩ : BufTy).Contents (Elt Ideal))
variable (x5 : (⟨S3072x1024, .f32⟩ : BufTy).Contents (Elt Ideal))
variable (x6 : (⟨S1024, .f32⟩ : BufTy).Contents (Elt Ideal))
variable (x7 : (⟨S1024x3, .f32⟩ : BufTy).Contents (Elt Ideal))
variable (x8 : (⟨S3, .f32⟩ : BufTy).Contents (Elt Ideal))

/-- Row `p` of an input, as a function of the column. -/
abbrev row (x : (⟨S32768x1024, .f32⟩ : BufTy).Contents (Elt Ideal)) (p : Fin 32768) : Fin 1024 → EReal := fun j => x (ix2 p j)

/-- The concatenation along the columns, at `(p, k)`: the three rows laid end to end, at `k`. -/
theorem cat_at (p : Fin 32768) (k : Fin 3072) :
    val_main_v0 (F := Ideal) x0 x1 x2 (ix2 p k) = cat (row x0 p) (row x1 p) (row x2 p) k := by
  unfold val_main_v0 cat
  split_ifs with h1 h2
  · exact concatenate_apply_piece (1 : Fin 2) [⟨S32768x1024, x0⟩, ⟨S32768x1024, x1⟩, ⟨S32768x1024, x2⟩] _ (ix2 p k) 0 (Nat.zero_lt_succ _) S32768x1024 x0 rfl rfl 0 rfl (ix2 p ⟨k.val, h1⟩)
      (fun b hb => by match b with | ⟨0, _⟩ => rfl | ⟨1, _⟩ => exact absurd rfl hb)
      (by show 0 + k.val = k.val; omega)
  · exact concatenate_apply_piece (1 : Fin 2) [⟨S32768x1024, x0⟩, ⟨S32768x1024, x1⟩, ⟨S32768x1024, x2⟩] _ (ix2 p k) 1 (Nat.succ_lt_succ (Nat.zero_lt_succ _)) S32768x1024 x1 rfl rfl 1024 rfl (ix2 p ⟨k.val - 1024, by omega⟩)
      (fun b hb => by match b with | ⟨0, _⟩ => rfl | ⟨1, _⟩ => exact absurd rfl hb)
      (by show 1024 + (k.val - 1024) = k.val; omega)
  · exact concatenate_apply_piece (1 : Fin 2) [⟨S32768x1024, x0⟩, ⟨S32768x1024, x1⟩, ⟨S32768x1024, x2⟩] _ (ix2 p k) 2 (Nat.succ_lt_succ (Nat.succ_lt_succ (Nat.zero_lt_succ _))) S32768x1024 x2 rfl rfl 2048 rfl (ix2 p ⟨k.val - 2048, by omega⟩)
      (fun b hb => by match b with | ⟨0, _⟩ => rfl | ⟨1, _⟩ => exact absurd rfl hb)
      (by show 2048 + (k.val - 2048) = k.val; omega)

/-- The whole row `p` of the concatenated input. -/
abbrev crow (p : Fin 32768) : Fin 3072 → EReal := cat (row x0 p) (row x1 p) (row x2 p)

/-- The row's mean, as the reference takes it: the sum from zero, divided by 3072. -/
abbrev mean (p : Fin 32768) : EReal := Ideal.div (0 + ∑ k, crow x0 x1 x2 p k) ((3072 : ℝ) : EReal)

/-- The row's reciprocal standard deviation: two-pass variance, epsilon, reciprocal square root. -/
abbrev istd (p : Fin 32768) : EReal :=
  Ideal.rsqrt (Ideal.div (0 + ∑ k, (crow x0 x1 x2 p k - mean x0 x1 x2 p) * (crow x0 x1 x2 p k - mean x0 x1 x2 p)) ((3072 : ℝ) : EReal) + (epsR : EReal))

/-- The mean of row `p`, kept in a column of height one. -/
theorem mean_at (p : Fin 32768) (u : Fin 1) : val_main_v4 (F := Ideal) x0 x1 x2 (ix2 p u) = mean x0 x1 x2 p := by
  have hidx : ∀ k : Fin 3072, idx_main_v1 (idx_main_v2 (ix2 p u)) k = ix2 p k := fun k =>
    funext fun a => by match a with | ⟨0, _⟩ => rfl | ⟨1, _⟩ => rfl
  rw [val_main_v4_apply, val_main_v2_apply, val_main_v1_apply, val_main_v3_apply, val_main_cst_0_apply, val_main_cst_apply]
  simp only [hidx, cat_at, Ideal.hostDivf_def, Ideal.ofBits_def, ofBits_zero, ofBits_3072]

/-- The reciprocal standard deviation of row `p`. -/
theorem istd_at (p : Fin 32768) (u : Fin 1) : val_main_v16 (F := Ideal) x0 x1 x2 (ix2 p u) = istd x0 x1 x2 p := by
  have hidx : ∀ k : Fin 3072, idx_main_v8 (idx_main_v9 (ix2 p u)) k = ix2 p k := fun k =>
    funext fun a => by match a with | ⟨0, _⟩ => rfl | ⟨1, _⟩ => rfl
  have hidx5 : ∀ k : Fin 3072, idx_main_v5 (ix2 p k) = ix2 p (0 : Fin 1) := fun k =>
    funext fun a => by match a with | ⟨0, _⟩ => rfl | ⟨1, _⟩ => rfl
  rw [val_main_v16_apply, val_main_v15_apply, val_main_v11_apply, val_main_v9_apply, val_main_v8_apply, val_main_v10_apply,
    val_main_cst_2_apply, val_main_v14_apply, val_main_cst_3_apply, val_main_cst_1_apply]
  simp only [hidx, val_main_v7_apply, val_main_v6_apply, val_main_v5_apply, hidx5, mean_at, cat_at, Ideal.hostDivf_def,
    Ideal.hostUnary_rsqrt_def, Ideal.ofBits_def, ofBits_zero, ofBits_3072, ofBits_eps, Ideal.addf_def, Ideal.subf_def, Ideal.mulf_def]

/-- Entry `k` of the normalised row `p` after the affine map. -/
theorem normed_at (p : Fin 32768) (k : Fin 3072) :
    val_main_v24 (F := Ideal) x0 x1 x2 x3 x4 (ix2 p k)
      = (crow x0 x1 x2 p k - mean x0 x1 x2 p) * istd x0 x1 x2 p * x3 (ix1 k) + x4 (ix1 k) := by
  have h12 : idx_main_v12 (ix2 p k) = ix2 p (0 : Fin 1) := funext fun a => by match a with | ⟨0, _⟩ => rfl | ⟨1, _⟩ => rfl
  have h17 : idx_main_v17 (ix2 p k) = ix2 p (0 : Fin 1) := funext fun a => by match a with | ⟨0, _⟩ => rfl | ⟨1, _⟩ => rfl
  have h19 : idx_main_v19 (idx_main_v20 (ix2 p k)) = ix1 k := funext fun a => by match a with | ⟨0, _⟩ => rfl
  have h22 : idx_main_v22 (idx_main_v23 (ix2 p k)) = ix1 k := funext fun a => by match a with | ⟨0, _⟩ => rfl
  rw [val_main_v24_apply, val_main_v21_apply, val_main_v18_apply, val_main_v13_apply, val_main_v12_apply, val_main_v17_apply,
    val_main_v20_apply, val_main_v19_apply, val_main_v23_apply, val_main_v22_apply, h12, h17, h19, h22, mean_at, istd_at, cat_at]
  rfl

/-- The hidden pre-activation of row `p`, column `q`: the first linear layer on the normalised row. -/
theorem pre_at (p : Fin 32768) (q : Fin 1024) :
    val_main_v28 (F := Ideal) x0 x1 x2 x3 x4 x5 x6 (ix2 p q)
      = preR (crow x0 x1 x2 p) (fun k => x3 (ix1 k)) (fun k => x4 (ix1 k)) (fun k q => x5 (ix2 k q)) (fun q => x6 (ix1 q)) q := by
  have hl : ∀ k : Fin 3072, lidx_main_v25 (ix2 p q) k = ix2 p k := fun k =>
    funext fun a => by match a with | ⟨0, _⟩ => rfl | ⟨1, _⟩ => rfl
  have hr : ∀ k : Fin 3072, ridx_main_v25 (ix2 p q) k = ix2 k q := fun k =>
    funext fun a => by match a with | ⟨0, _⟩ => rfl | ⟨1, _⟩ => rfl
  have h26 : idx_main_v26 (idx_main_v27 (ix2 p q)) = ix1 q := funext fun a => by match a with | ⟨0, _⟩ => rfl
  rw [val_main_v28_apply, val_main_v25_apply, val_main_v27_apply, val_main_v26_apply, h26]
  simp only [hl, hr, normed_at]
  rfl

/-- The hidden pre-activations of row `p`, in the reference's form. -/
abbrev pre (p : Fin 32768) : Fin 1024 → EReal :=
  preR (crow x0 x1 x2 p) (fun k => x3 (ix1 k)) (fun k => x4 (ix1 k)) (fun k q => x5 (ix2 k q)) (fun q => x6 (ix1 q))

/-- The three logits of row `p`. -/
abbrev lg (p : Fin 32768) : Fin 3 → EReal :=
  logit (pre x0 x1 x2 x3 x4 x5 x6 p) (fun q a => x7 (ix2 q a)) (fun a => x8 (ix1 a))

/-- After the relu. -/
theorem hidden_at (p : Fin 32768) (q : Fin 1024) :
    val_main_v29 (F := Ideal) x0 x1 x2 x3 x4 x5 x6 (ix2 p q) = max (pre x0 x1 x2 x3 x4 x5 x6 p q) 0 := by
  rw [val_main_v29_apply, val_main_call0_v0_apply, val_main_call0_cst_apply, pre_at]
  simp only [Ideal.maximumf_def, Ideal.ofBits_def, ofBits_zero]

/-- The logits: the second linear layer on the relu'd row. -/
theorem logits_at (p : Fin 32768) (a : Fin 3) :
    val_main_v33 (F := Ideal) x0 x1 x2 x3 x4 x5 x6 x7 x8 (ix2 p a) = lg x0 x1 x2 x3 x4 x5 x6 x7 x8 p a := by
  have hl : ∀ k : Fin 1024, lidx_main_v30 (ix2 p a) k = ix2 p k := fun k =>
    funext fun d => by match d with | ⟨0, _⟩ => rfl | ⟨1, _⟩ => rfl
  have hr : ∀ k : Fin 1024, ridx_main_v30 (ix2 p a) k = ix2 k a := fun k =>
    funext fun d => by match d with | ⟨0, _⟩ => rfl | ⟨1, _⟩ => rfl
  have h31 : idx_main_v31 (idx_main_v32 (ix2 p a)) = ix1 a := funext fun d => by match d with | ⟨0, _⟩ => rfl
  rw [val_main_v33_apply, val_main_v30_apply, val_main_v32_apply, val_main_v31_apply, h31]
  simp only [hl, hr, hidden_at]
  rfl

/-- The row maximum: the host's reduction by `max` from `-∞` is the fold over the three logits, and the second
    `max` with `-∞` changes nothing. -/
theorem rowmax_at (p : Fin 32768) :
    val_main_v36 (F := Ideal) x0 x1 x2 x3 x4 x5 x6 x7 x8 (ix1 p) = rowMax (lg x0 x1 x2 x3 x4 x5 x6 x7 x8 p) := by
  have h : S32768x3.Reduces [1] S32768 := by decide
  have hlift : ∀ a : Fin 3, h.lift (ix1 p) a = ix2 p a := fun a =>
    funext fun d => by match d with | ⟨0, _⟩ => rfl | ⟨1, _⟩ => rfl
  have hfun : (val_main_v33 (F := Ideal) x0 x1 x2 x3 x4 x5 x6 x7 x8 ∘ h.lift (ix1 p)) = lg x0 x1 x2 x3 x4 x5 x6 x7 x8 p :=
    funext fun a => (congrArg (val_main_v33 (F := Ideal) x0 x1 x2 x3 x4 x5 x6 x7 x8) (hlift a)).trans
      (logits_at x0 x1 x2 x3 x4 x5 x6 x7 x8 p a)
  rw [val_main_v36_apply, val_main_v35_apply, val_main_cst_5_apply]
  unfold val_main_v34
  rw [Host.reduce_eq_fold_single FloatOps.maximumf _ _ reducesTo_S32768x3_S32768_d1 h h_S_, hfun, val_main_cst_4_apply]
  simp only [Ideal.ofBits_def, ofBits_ninf, Ideal.maximumf_def]
  exact max_bot_left _

/-- The softmax weight of logit `a` in row `p`. -/
theorem softmax_at (p : Fin 32768) (a : Fin 3) :
    val_main_v44 (F := Ideal) x0 x1 x2 x3 x4 x5 x6 x7 x8 (ix2 p a) = gate (lg x0 x1 x2 x3 x4 x5 x6 x7 x8 p) a := by
  have h37 : ∀ k : Fin 3, idx_main_v37 (idx_main_v38 (ix2 p k)) = ix1 p := fun k =>
    funext fun d => by match d with | ⟨0, _⟩ => rfl
  have h42 : idx_main_v42 (idx_main_v43 (ix2 p a)) = ix1 p := funext fun d => by match d with | ⟨0, _⟩ => rfl
  have h41 : ∀ k : Fin 3, idx_main_v41 (ix1 p) k = ix2 p k := fun k =>
    funext fun d => by match d with | ⟨0, _⟩ => rfl | ⟨1, _⟩ => rfl
  have hexp : ∀ k : Fin 3, val_main_v40 (F := Ideal) x0 x1 x2 x3 x4 x5 x6 x7 x8 (ix2 p k)
      = Ideal.exp (lg x0 x1 x2 x3 x4 x5 x6 x7 x8 p k - rowMax (lg x0 x1 x2 x3 x4 x5 x6 x7 x8 p)) := fun k => by
    rw [val_main_v40_apply, val_main_v39_apply, val_main_v38_apply, val_main_v37_apply, h37, rowmax_at, logits_at]
    rfl
  rw [val_main_v44_apply, val_main_v43_apply, val_main_v42_apply, h42, val_main_v41_apply, val_main_cst_6_apply, hexp]
  simp only [h41, hexp, Ideal.hostDivf_def, Ideal.ofBits_def, ofBits_zero, zero_add]
  rfl

/-- THE REFERENCE AT AN INDEX: the three softmax weights of row `p` mix the row's entries of `s, t, f` at column `q`. -/
theorem out_at (p : Fin 32768) (q : Fin 1024) :
    val_main_v55 (F := Ideal) x0 x1 x2 x3 x4 x5 x6 x7 x8 (ix2 p q)
      = (gate (lg x0 x1 x2 x3 x4 x5 x6 x7 x8 p) 0 * x0 (ix2 p q) + gate (lg x0 x1 x2 x3 x4 x5 x6 x7 x8 p) 1 * x1 (ix2 p q))
        + gate (lg x0 x1 x2 x3 x4 x5 x6 x7 x8 p) 2 * x2 (ix2 p q) := by
  have h45 : idx_main_v45 (idx_main_v46 (ix2 p q)) = ix2 p (0 : Fin 3) :=
    funext fun d => by match d with | ⟨0, _⟩ => rfl | ⟨1, _⟩ => rfl
  have h48 : idx_main_v48 (idx_main_v49 (ix2 p q)) = ix2 p (1 : Fin 3) :=
    funext fun d => by match d with | ⟨0, _⟩ => rfl | ⟨1, _⟩ => rfl
  have h52 : idx_main_v52 (idx_main_v53 (ix2 p q)) = ix2 p (2 : Fin 3) :=
    funext fun d => by match d with | ⟨0, _⟩ => rfl | ⟨1, _⟩ => rfl
  rw [val_main_v55_apply, val_main_v51_apply, val_main_v47_apply, val_main_v46_apply, val_main_v45_apply, val_main_v50_apply,
    val_main_v49_apply, val_main_v48_apply, val_main_v54_apply, val_main_v53_apply, val_main_v52_apply, h45, h48, h52,
    softmax_at, softmax_at, softmax_at]
  rfl

/-- THE REFERENCE'S RESULT ARRAY is `out` of its nine arguments. -/
theorem ref_eq : val_main_v55 (F := Ideal) x0 x1 x2 x3 x4 x5 x6 x7 x8 = out x0 x1 x2 x3 x4 x5 x6 x7 x8 := by
  funext i
  obtain ⟨p, q, rfl⟩ : ∃ (p : Fin 32768) (q : Fin 1024), i = ix2 p q := ⟨i 0, i 1, eq_ix2 i⟩
  exact out_at x0 x1 x2 x3 x4 x5 x6 x7 x8 p q

end GatedFusion.Ref

end
-- ==== Proof.KerOps.lean ====
/-
  The kernel body's operations that are not pointwise, each read at an index of its result (at the
  ideal values): a sum along a row, the largest entry of a row, a row's value kept as a column of
  width one, that column spread back over the columns, one row spread over all rows, and the two
  matrix products as sums over the contracted index.
-/
import proofs.«403387_j69784628625675_3_alg».proof.Proof.Gen.KernelIdeal.Skeleton
import proofs.«403387_j69784628625675_3_alg».proof.Proof.RowMath
import Idealize.ShloMosaic.Lib.ValueIdx
import Idealize.ShloMosaic.Lib.ValueLayout
import Idealize.ShloMosaic.Lib.Pipeline.Value
import Idealize.ShloMosaic.PureOps.Ideal.Laws

noncomputable section

namespace GatedFusion.Ker

open Cert.KernelIdeal Cert.KernelIdeal.Gen Idealize.ShloMosaic Idealize.ShloMosaic.ValueIdx GatedFusion GatedFusion.Consts

/-! ## Reductions along a row -/

/-- The sum along row `p` of a `512 × 1024` block. -/
theorem rowsum_at (v : FVec Ideal S512x1024 .f32) (hφ : FKind.Formats .f32) (hacc : (0x00000000#32 : BitVec 32) = 0x00000000#32)
    (p : Fin 512) :
    multiReduction .add [1] S512 v 0x00000000#32 reduces_S512x1024_S512 hφ hacc (ix1 p) = ∑ j : Fin 1024, v (ix2 p j) := by
  refine (Ideal.multiReduction_add_single v 0x00000000#32 reduces_S512x1024_S512 hφ hacc (ix1 p)).trans ?_
  exact Finset.sum_congr rfl fun j _ => congrArg v (funext fun d => by match d with | ⟨0, _⟩ => rfl | ⟨1, _⟩ => rfl)

/-- The sum along row `p` of a `512 × 3` block. -/
theorem rowsum3_at (v : FVec Ideal S512x3 .f32) (hφ : FKind.Formats .f32) (hacc : (0x00000000#32 : BitVec 32) = 0x00000000#32)
    (p : Fin 512) :
    multiReduction .add [1] S512 v 0x00000000#32 reduces_S512x3_S512 hφ hacc (ix1 p) = ∑ a : Fin 3, v (ix2 p a) := by
  refine (Ideal.multiReduction_add_single v 0x00000000#32 reduces_S512x3_S512 hφ hacc (ix1 p)).trans ?_
  exact Finset.sum_congr rfl fun j _ => congrArg v (funext fun d => by match d with | ⟨0, _⟩ => rfl | ⟨1, _⟩ => rfl)

/-- The largest entry of row `p` of a `512 × 3` block, as the fold of `max` from `-∞`. -/
theorem rowmax3_at (v : FVec Ideal S512x3 .f32) (hφ : FKind.Formats .f32) (hacc : (0xFF800000#32 : BitVec 32) = 0xFF800000#32)
    (p : Fin 512) :
    multiReduction .maximumf [1] S512 v 0xFF800000#32 reduces_S512x3_S512 hφ hacc (ix1 p) = rowMax fun a => v (ix2 p a) := by
  refine (Ideal.multiReduction_maximumf_single v 0xFF800000#32 reduces_S512x3_S512 hφ hacc (ix1 p)).trans ?_
  have hfun : (v ∘ reduces_S512x3_S512.lift (ix1 p)) = fun a : Fin 3 => v (ix2 p a) :=
    funext fun a => congrArg v (funext fun d => by match d with | ⟨0, _⟩ => rfl | ⟨1, _⟩ => rfl)
  rw [hfun]
  show (Finset.univ : Finset (Fin 3)).fold max (Ideal.ofBits .f32 0xFF800000#32) _ = _
  rw [ofBits_ninf]
  rfl

/-! ## A row's value as a column, and spread back -/

/-- A vector of 512 row values kept as a `512 × 1` column. -/
theorem col_at {α : Type} (v : S512.Idx → α) (p : Fin 512) (u : Fin 1) :
    shapeCast S512x1 v shapeCasts_S512_S512x1 (ix2 p u) = v (ix1 p) :=
  shapeCast_apply v shapeCasts_S512_S512x1 _ _ (by
    have hu : u.val = 0 := by omega
    rw [Shape.rowMajor_val_two, Shape.rowMajor_val_one]
    show p.val = p.val * 1 + u.val
    omega)

/-- A `512 × 1` column spread over 1024 columns. -/
theorem spread_at {α : Type} (v : S512x1.Idx → α) (p : Fin 512) (q : Fin 1024) :
    broadcastTo S512x1024 v broadcasts_S512x1_S512x1024 (ix2 p q) = v (ix2 p (0 : Fin 1)) := by
  refine broadcastTo_apply v broadcasts_S512x1_S512x1024 (ix2 p q) (ix2 p (0 : Fin 1)) fun ax => ?_
  match ax with
  | ⟨0, _⟩ => rfl
  | ⟨1, _⟩ => rfl

/-- A `512 × 1` column spread over 3 columns. -/
theorem spread3_at {α : Type} (v : S512x1.Idx → α) (p : Fin 512) (a : Fin 3) :
    broadcastTo S512x3 v broadcasts_S512x1_S512x3 (ix2 p a) = v (ix2 p (0 : Fin 1)) := by
  refine broadcastTo_apply v broadcasts_S512x1_S512x3 (ix2 p a) (ix2 p (0 : Fin 1)) fun ax => ?_
  match ax with
  | ⟨0, _⟩ => rfl
  | ⟨1, _⟩ => rfl

/-- One row of 1024 spread over the 512 rows. -/
theorem rows_at {α : Type} (v : S1x1024.Idx → α) (p : Fin 512) (q : Fin 1024) :
    broadcastTo S512x1024 v broadcasts_S1x1024_S512x1024 (ix2 p q) = v (ix2 (0 : Fin 1) q) :=
  broadcastTo_1b_ab_apply v broadcasts_S1x1024_S512x1024 p q

/-- One row of 3 spread over the 512 rows. -/
theorem rows3_at {α : Type} (v : S1x3.Idx → α) (p : Fin 512) (a : Fin 3) :
    broadcastTo S512x3 v broadcasts_S1x3_S512x3 (ix2 p a) = v (ix2 (0 : Fin 1) a) :=
  broadcastTo_1b_ab_apply v broadcasts_S1x3_S512x3 p a

/-! ## One of the three columns of the weights -/

/-- Column 0 of a `512 × 3` block, as a `512 × 1` column. -/
theorem pick0_at {α : Type} (v : S512x3.Idx → α) (p : Fin 512) (u : Fin 1) :
    extractStridedSlice S512x1 ![0, 0] v slices_S512x3_o0_0_S512x1 (ix2 p u) = v (ix2 p (0 : Fin 3)) :=
  slice2_axis1_apply 0 v slices_S512x3_o0_0_S512x1 p u 0 (by have := u.isLt; show (0 : ℕ) = 0 + u.val; omega)

/-- Column 1. -/
theorem pick1_at {α : Type} (v : S512x3.Idx → α) (p : Fin 512) (u : Fin 1) :
    extractStridedSlice S512x1 ![0, 1] v slices_S512x3_o0_1_S512x1 (ix2 p u) = v (ix2 p (1 : Fin 3)) :=
  slice2_axis1_apply 1 v slices_S512x3_o0_1_S512x1 p u 1 (by have := u.isLt; show (1 : ℕ) = 1 + u.val; omega)

/-- Column 2. -/
theorem pick2_at {α : Type} (v : S512x3.Idx → α) (p : Fin 512) (u : Fin 1) :
    extractStridedSlice S512x1 ![0, 2] v slices_S512x3_o0_2_S512x1 (ix2 p u) = v (ix2 p (2 : Fin 3)) :=
  slice2_axis1_apply 2 v slices_S512x3_o0_2_S512x1 p u 2 (by have := u.isLt; show (2 : ℕ) = 2 + u.val; omega)

/-! ## The matrix products, as sums over the contracted index

The operand indices of a product at output `(p, q)` and contraction coordinate `k` are `(p, k)` and `(k, q)`; stated
axis by axis for each of the two dimension records, then used to re-index the sum. -/

theorem lhs_sq_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_sq_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_sq_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_sq_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A `512 × 1024` block times a `1024 × 1024` matrix, into zero: at `(p, q)` the sum over `k` of the products. -/
theorem mm_at (lhs : FVec Ideal S512x1024 .bf16) (rhs : FVec Ideal S1024x1024 .bf16) (p : Fin 512) (q : Fin 1024) :
    matmul dot_S512x1024_S1024x1024_S512x1024_1_0_0_1_n_n none lhs rhs (constant S512x1024 .f32 0x00000000#32) (ix2 p q)
      = ∑ k : Fin 1024, lhs (ix2 p k) * rhs (ix2 k q) := by
  refine (Ideal.matmul_constant_zero_apply dot_S512x1024_S1024x1024_S512x1024_1_0_0_1_n_n none lhs rhs (ix2 p q)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ => exact lhs_sq_0 _ _
    | ⟨1, _⟩ => exact (lhs_sq_1 _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨0, _⟩ => exact (rhs_sq_0 _ _).trans hk
    | ⟨1, _⟩ => exact rhs_sq_1 _ _)
  rw [el, er]

theorem lhs_w2_0 (i : S512x3.Idx) (q : dot_S512x1024_S1024x3_S512x3_1_0_0_1_n_n.contr.Idx) :
    (dot_S512x1024_S1024x3_S512x3_1_0_0_1_n_n.lhsIdx i q 0).val = (i 0).val := by
  unfold DotDims.lhsIdx
  rw [dif_neg (show ¬(0 : Fin S512x1024.rank) ∈ dot_S512x1024_S1024x3_S512x3_1_0_0_1_n_n.lhsBatch by decide), dif_pos (show (0 : Fin S512x1024.rank) ∈ dot_S512x1024_S1024x3_S512x3_1_0_0_1_n_n.lhsNonContracting by decide)]
  rfl
theorem lhs_w2_1 (i : S512x3.Idx) (q : dot_S512x1024_S1024x3_S512x3_1_0_0_1_n_n.contr.Idx) :
    (dot_S512x1024_S1024x3_S512x3_1_0_0_1_n_n.lhsIdx i q 1).val = (q ⟨0, by decide⟩).val :=
  dot_S512x1024_S1024x3_S512x3_1_0_0_1_n_n.lhsIdx_val_of_single rfl i q
theorem rhs_w2_0 (i : S512x3.Idx) (q : dot_S512x1024_S1024x3_S512x3_1_0_0_1_n_n.contr.Idx) :
    (dot_S512x1024_S1024x3_S512x3_1_0_0_1_n_n.rhsIdx i q 0).val = (q ⟨0, by decide⟩).val :=
  dot_S512x1024_S1024x3_S512x3_1_0_0_1_n_n.rhsIdx_val_of_single rfl i q
theorem rhs_w2_1 (i : S512x3.Idx) (q : dot_S512x1024_S1024x3_S512x3_1_0_0_1_n_n.contr.Idx) :
    (dot_S512x1024_S1024x3_S512x3_1_0_0_1_n_n.rhsIdx i q 1).val = (i 1).val := by
  unfold DotDims.rhsIdx
  rw [dif_neg (show ¬(1 : Fin S1024x3.rank) ∈ dot_S512x1024_S1024x3_S512x3_1_0_0_1_n_n.rhsBatch by decide), dif_pos (show (1 : Fin S1024x3.rank) ∈ dot_S512x1024_S1024x3_S512x3_1_0_0_1_n_n.rhsNonContracting by decide)]
  rfl

/-- A `512 × 1024` block times the `1024 × 3` matrix, into zero: at `(p, a)` the sum over `k` of the products. -/
theorem mm3_at (lhs : FVec Ideal S512x1024 .bf16) (rhs : FVec Ideal S1024x3 .bf16) (p : Fin 512) (a : Fin 3) :
    matmul dot_S512x1024_S1024x3_S512x3_1_0_0_1_n_n none lhs rhs (constant S512x3 .f32 0x00000000#32) (ix2 p a)
      = ∑ k : Fin 1024, lhs (ix2 p k) * rhs (ix2 k a) := by
  refine (Ideal.matmul_constant_zero_apply dot_S512x1024_S1024x3_S512x3_1_0_0_1_n_n none lhs rhs (ix2 p a)).trans ?_
  rw [← Equiv.sum_comp (contrEquiv1 dot_S512x1024_S1024x3_S512x3_1_0_0_1_n_n 1024 rfl rfl).symm]
  refine Finset.sum_congr rfl fun k _ => ?_
  have hk := contrEquiv1_symm_val dot_S512x1024_S1024x3_S512x3_1_0_0_1_n_n 1024 rfl rfl k
  have el : dot_S512x1024_S1024x3_S512x3_1_0_0_1_n_n.lhsIdx (ix2 p a) ((contrEquiv1 dot_S512x1024_S1024x3_S512x3_1_0_0_1_n_n 1024 rfl rfl).symm k) = ix2 p k := funext fun d => Fin.ext (by
    match d with
    | ⟨0, _⟩ => exact lhs_w2_0 _ _
    | ⟨1, _⟩ => exact (lhs_w2_1 _ _).trans hk)
  have er : dot_S512x1024_S1024x3_S512x3_1_0_0_1_n_n.rhsIdx (ix2 p a) ((contrEquiv1 dot_S512x1024_S1024x3_S512x3_1_0_0_1_n_n 1024 rfl rfl).symm k) = ix2 k a := funext fun d => Fin.ext (by
    match d with
    | ⟨0, _⟩ => exact (rhs_w2_0 _ _).trans hk
    | ⟨1, _⟩ => exact rhs_w2_1 _ _)
  rw [el, er]

end GatedFusion.Ker

end
-- ==== Proof.KerBlock.lean ====
/-
  The kernel body's values, read at an index (at the ideal values), over arbitrary blocks of the
  loads' shapes: the row mean, the reciprocal standard deviation, the first matrix product, and the
  three softmax weights of a row. Together: the weights of row `p` of a block are the softmax of the
  logits of the kernel-form pre-activation of that row.
-/
import proofs.«403387_j69784628625675_3_alg».proof.Proof.KerOps
import proofs.«403387_j69784628625675_3_alg».proof.Proof.Gen.KernelIdeal.Frame

noncomputable section

namespace GatedFusion.Ker

open Cert.KernelIdeal Cert.KernelIdeal.Gen Idealize.ShloMosaic Idealize.ShloMosaic.ValueIdx GatedFusion GatedFusion.Consts

/-! ## Pointwise operations the index passes through, and the constants -/

theorem rsqrt_at {s : Shape} (v : FVec Ideal s .f32) (i : s.Idx) : rsqrt v i = Ideal.rsqrt (v i) := rfl
theorem exp_at {s : Shape} (v : FVec Ideal s .f32) (i : s.Idx) : exp v i = Ideal.exp (v i) := rfl
theorem scalar_ofBits (b : BitVec 32) : Scalar.ofBits (F := Ideal) .f32 b = Ideal.ofBits .f32 b := rfl

/-- The named reciprocal of the row length denotes the rational `1/3072`, by the certificate's table. -/
theorem named_inv : Named.named (F := Ideal) Cert.KernelIdeal.κ "inv_3072" (φ := .f32) 0x39AAAAAB#32 = ((1 / 3072 : ℝ) : EReal) :=
  IdealRules.named_const.ideal_named_scalar _ _ _ _ rfl

/-! ## The row statistics -/

/-- The mean of row `p` over the three blocks: the three row sums, times `1/3072`. -/
theorem pay2_at (v0 v1 v2 : FVec Ideal S512x1024 .f32) (p : Fin 512) (u : Fin 1) :
    k0_pay2 (F := Ideal) v0 v1 v2 (ix2 p u)
      = (((∑ j : Fin 1024, v0 (ix2 p j)) + ∑ j : Fin 1024, v1 (ix2 p j)) + ∑ j : Fin 1024, v2 (ix2 p j)) * ((1 / 3072 : ℝ) : EReal) := by
  simp only [k0_pay2, mulf_apply, addf_apply, broadcast_apply, col_at, named_inv]
  rw [rowsum_at, rowsum_at, rowsum_at]

/-- The reciprocal standard deviation of row `p`: one-pass variance clamped at zero, epsilon, reciprocal square root. -/
theorem pay3_at (v0 v1 v2 : FVec Ideal S512x1024 .f32) (p : Fin 512) (u : Fin 1) :
    k0_pay3 (F := Ideal) v0 v1 v2 (ix2 p u)
      = Ideal.rsqrt (max ((((∑ j : Fin 1024, v0 (ix2 p j) * v0 (ix2 p j)) + ∑ j : Fin 1024, v1 (ix2 p j) * v1 (ix2 p j))
              + ∑ j : Fin 1024, v2 (ix2 p j) * v2 (ix2 p j)) * ((1 / 3072 : ℝ) : EReal)
            - (((∑ j : Fin 1024, v0 (ix2 p j)) + ∑ j : Fin 1024, v1 (ix2 p j)) + ∑ j : Fin 1024, v2 (ix2 p j)) * ((1 / 3072 : ℝ) : EReal)
              * ((((∑ j : Fin 1024, v0 (ix2 p j)) + ∑ j : Fin 1024, v1 (ix2 p j)) + ∑ j : Fin 1024, v2 (ix2 p j)) * ((1 / 3072 : ℝ) : EReal))) 0
          + (epsR : EReal)) := by
  simp only [k0_pay3, rsqrt_at, mulf_apply, addf_apply, subf_apply, maximumf_apply, broadcast_apply, col_at, named_inv,
    pay2_at, scalar_ofBits, ofBits_zero, ofBits_eps]
  rw [rowsum_at, rowsum_at, rowsum_at]
  simp only [mulf_apply]

/-- The first matrix product at `(p, q)`. -/
theorem pay4_at (v0 : FVec Ideal S512x1024 .f32) (v34 : FVec Ideal S1024x1024 .bf16) (p : Fin 512) (q : Fin 1024) :
    k0_pay4 (F := Ideal) v0 v34 (ix2 p q) = ∑ k : Fin 1024, v0 (ix2 p k) * v34 (ix2 k q) := by
  simp only [k0_pay4, mm_at, truncf_apply, shapeCast_self]

/-! ## The softmax weights of a row -/

/-- The weight of logit `a` in row `p`, from the row's mean `v12`, reciprocal standard deviation `v32`, first product
    `v36` and the blocks of the remaining operands: the softmax of the logits of the folded pre-activation. -/
theorem pay6_at (v2 : FVec Ideal S512x1024 .f32) (v12 v32 : FVec Ideal S512x1 .f32) (v36 : FVec Ideal S512x1024 .f32)
    (v37 : FVec Ideal S512x1024 .bf16) (v38 v43 : FVec Ideal S1024x1024 .bf16) (v47 v55 : FVec Ideal S1x1024 .f32)
    (v62 : FVec Ideal S1024x3 .bf16) (v65 : FVec Ideal S1x3 .f32) (p : Fin 512) (a : Fin 3) :
    k0_pay6 (F := Ideal) v2 v12 v32 v36 v37 v38 v43 v47 v55 v62 v65 (ix2 p a)
      = gate (logit (fun q => v32 (ix2 p (0 : Fin 1))
              * (((v36 (ix2 p q) + ∑ k : Fin 1024, v37 (ix2 p k) * v38 (ix2 k q)) + ∑ k : Fin 1024, v2 (ix2 p k) * v43 (ix2 k q))
                  - v12 (ix2 p (0 : Fin 1)) * v47 (ix2 (0 : Fin 1) q))
            + v55 (ix2 (0 : Fin 1) q))
          (fun q a => v62 (ix2 q a)) (fun a => v65 (ix2 (0 : Fin 1) a))) a := by
  simp only [k0_pay6, divf_apply, exp_at, subf_apply, spread3_at, col_at]
  rw [rowsum3_at]
  simp only [exp_at, subf_apply, spread3_at, col_at]
  rw [rowmax3_at]
  simp only [addf_apply, mulf_apply, subf_apply, maximumf_apply, broadcast_apply, truncf_apply, spread_at, rows_at, rows3_at, mm_at,
    mm3_at, shapeCast_self, scalar_ofBits, ofBits_zero]
  rfl

/-! ## A whole block of the output -/

theorem hz : (![0, 0] : Fin 2 → Nat) = fun _ => 0 := funext fun a => by fin_cases a <;> rfl

/-- WHAT THE BODY LEAVES IN THE OUTPUT BLOCK at `(p, q)`, when row `p` of the three input blocks is `s, t, f` and the
    resident blocks hold the folded weights `Ws, Wt, Wf`, their column sums `r`, the folded bias `bp` and the second
    layer `W2, b2`: the softmax weights of the kernel-form logits of the row, mixing `s q, t q, f q`. -/
theorem block_out (X0 X1 X2 : FVec Ideal S512x1024 .f32) (X3 X4 : FVec Ideal S1x1024 .f32) (X5 X6 X7 : FVec Ideal S1024x1024 .bf16)
    (X8 : FVec Ideal S1024x3 .bf16) (X9 : FVec Ideal S1x3 .f32) (p : Fin 512) (q : Fin 1024)
    (s t f : Fin 1024 → EReal) (Ws Wt Wf : Fin 1024 → Fin 1024 → EReal) (r bp : Fin 1024 → EReal)
    (W2 : Fin 1024 → Fin 3 → EReal) (b2 : Fin 3 → EReal)
    (h0 : ∀ j, X0 (ix2 p j) = s j) (h1 : ∀ j, X1 (ix2 p j) = t j) (h2 : ∀ j, X2 (ix2 p j) = f j)
    (h3 : ∀ q, X3 (ix2 (0 : Fin 1) q) = r q) (h4 : ∀ q, X4 (ix2 (0 : Fin 1) q) = bp q)
    (h5 : ∀ j q, X5 (ix2 j q) = Ws j q) (h6 : ∀ j q, X6 (ix2 j q) = Wt j q) (h7 : ∀ j q, X7 (ix2 j q) = Wf j q)
    (h8 : ∀ q a, X8 (ix2 q a) = W2 q a) (h9 : ∀ a, X9 (ix2 (0 : Fin 1) a) = b2 a) :
    out0_10 (F := Ideal) X0 X1 X2 X3 X4 X5 X6 X7 X8 X9 (ix2 p q)
      = (gate (logit (preK s t f Ws Wt Wf r bp) W2 b2) 0 * s q + gate (logit (preK s t f Ws Wt Wf r bp) W2 b2) 1 * t q)
          + gate (logit (preK s t f Ws Wt Wf r bp) W2 b2) 2 * f q := by
  unfold out0_10
  rw [View.canon_unit_zero hz]
  simp only [View.ld_unit_zero (S := S512x1024) hz, View.ld_unit_zero (S := S1024x1024) hz, View.ld_unit_zero (S := S1x1024) hz,
    View.ld_unit_zero (S := S1024x3) hz, View.ld_unit_zero (S := S1x3) hz]
  simp only [k0_pay1, k0_pay7, k0_pay8, k0_pay9, k0_pay5, addf_apply, mulf_apply, spread_at, pick0_at, pick1_at, pick2_at, pay6_at,
    pay2_at, pay3_at, pay4_at, truncf_apply, h0, h1, h2, h3, h4, h5, h6, h7, h8, h9]
  rfl

end GatedFusion.Ker

end
-- ==== Proof.KerHost.lean ====
/-
  What the host operations before the kernel leave in the arrays its resident windows stage, read at
  an index: the three blocks of the folded weights `w_k·W_kq`, their column sums, the folded bias
  `b_q + Σ_k β_k·W_kq`, and the second layer's weights and bias unchanged.
-/
import proofs.«403387_j69784628625675_3_alg».proof.Proof.Gen.KernelIdeal.Frame
import proofs.«403387_j69784628625675_3_alg».proof.Proof.RowMath
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace GatedFusion.Host

open Cert.KernelIdeal Cert.KernelIdeal.Gen Idealize.ShloMosaic Idealize.ShloMosaic.TcCoe Idealize.ShloMosaic.ValueIdx Idealize.SL.Sem
open Idealize.ShloMosaic.StableHlo GatedFusion GatedFusion.Consts

variable (m : (ℓ : Loc nD τ sig) → Buf (Elt Ideal) ℓ)

/-! ## The nine arguments as launched -/

abbrev A0 (c : Dev nD) : FVec Ideal S32768x1024 .f32 := m ((c : Thread nD τ).loc main_arg0)
abbrev A1 (c : Dev nD) : FVec Ideal S32768x1024 .f32 := m ((c : Thread nD τ).loc main_arg1)
abbrev A2 (c : Dev nD) : FVec Ideal S32768x1024 .f32 := m ((c : Thread nD τ).loc main_arg2)
abbrev A3 (c : Dev nD) : FVec Ideal S3072 .f32 := m ((c : Thread nD τ).loc main_arg3)
abbrev A4 (c : Dev nD) : FVec Ideal S3072 .f32 := m ((c : Thread nD τ).loc main_arg4)
abbrev A5 (c : Dev nD) : FVec Ideal S3072x1024 .f32 := m ((c : Thread nD τ).loc main_arg5)
abbrev A6 (c : Dev nD) : FVec Ideal S1024 .f32 := m ((c : Thread nD τ).loc main_arg6)
abbrev A7 (c : Dev nD) : FVec Ideal S1024x3 .f32 := m ((c : Thread nD τ).loc main_arg7)
abbrev A8 (c : Dev nD) : FVec Ideal S3 .f32 := m ((c : Thread nD τ).loc main_arg8)

/-! ## The folded weights -/

/-- The first layer's weights with the normalisation's scale folded in: row `k` of `W` times `w_k`. -/
abbrev scaled (c : Dev nD) : FVec Ideal S3072x1024 .f32 :=
  mulf (broadcastInDim S3072x1024 ![0, 1] bcast_S3072x1_S3072x1024_0_1 (shapeCast S3072x1 (A3 m c) shapeCasts_S3072_S3072x1)) (A5 m c)

theorem scaled_at (c : Dev nD) (k : Fin 3072) (q : Fin 1024) :
    scaled m c (ix2 k q) = A3 m c (ix1 k) * A5 m c (ix2 k q) := by
  show (broadcastInDim S3072x1024 ![0, 1] bcast_S3072x1_S3072x1024_0_1 (shapeCast S3072x1 (A3 m c) shapeCasts_S3072_S3072x1)) (ix2 k q)
      * A5 m c (ix2 k q) = _
  rw [broadcastInDim_apply _ bcast_S3072x1_S3072x1024_0_1 _ (ix2 k q) (ix2 k (0 : Fin 1)) (fun a => match a with
      | ⟨0, _⟩ => by show k.val = if (3072 : Nat) = 1 then 0 else k.val; rw [if_neg (by decide)]
      | ⟨1, _⟩ => by show 0 = if (1 : Nat) = 1 then 0 else q.val; rw [if_pos rfl]),
    shapeCast_apply (A3 m c) shapeCasts_S3072_S3072x1 (ix2 k (0 : Fin 1)) (ix1 k) (by
      rw [Shape.rowMajor_val_two, Shape.rowMajor_val_one]
      show k.val = k.val * 1 + 0
      omega)]

/-! ## The folded bias's matrix product: a row of 3072 times the `3072 × 1024` weights -/

theorem lhs_b_0 (i : S1x1024.Idx) (q : dot_S1x3072_S3072x1024_S1x1024_1_0_0_1_n_n.contr.Idx) :
    (dot_S1x3072_S3072x1024_S1x1024_1_0_0_1_n_n.lhsIdx i q 0).val = (i 0).val := by
  unfold DotDims.lhsIdx
  rw [dif_neg (show ¬(0 : Fin S1x3072.rank) ∈ dot_S1x3072_S3072x1024_S1x1024_1_0_0_1_n_n.lhsBatch by decide), dif_pos (show (0 : Fin S1x3072.rank) ∈ dot_S1x3072_S3072x1024_S1x1024_1_0_0_1_n_n.lhsNonContracting by decide)]
  rfl
theorem lhs_b_1 (i : S1x1024.Idx) (q : dot_S1x3072_S3072x1024_S1x1024_1_0_0_1_n_n.contr.Idx) :
    (dot_S1x3072_S3072x1024_S1x1024_1_0_0_1_n_n.lhsIdx i q 1).val = (q ⟨0, by decide⟩).val :=
  dot_S1x3072_S3072x1024_S1x1024_1_0_0_1_n_n.lhsIdx_val_of_single rfl i q
theorem rhs_b_0 (i : S1x1024.Idx) (q : dot_S1x3072_S3072x1024_S1x1024_1_0_0_1_n_n.contr.Idx) :
    (dot_S1x3072_S3072x1024_S1x1024_1_0_0_1_n_n.rhsIdx i q 0).val = (q ⟨0, by decide⟩).val :=
  dot_S1x3072_S3072x1024_S1x1024_1_0_0_1_n_n.rhsIdx_val_of_single rfl i q
theorem rhs_b_1 (i : S1x1024.Idx) (q : dot_S1x3072_S3072x1024_S1x1024_1_0_0_1_n_n.contr.Idx) :
    (dot_S1x3072_S3072x1024_S1x1024_1_0_0_1_n_n.rhsIdx i q 1).val = (i 1).val := by
  unfold DotDims.rhsIdx
  rw [dif_neg (show ¬(1 : Fin S3072x1024.rank) ∈ dot_S1x3072_S3072x1024_S1x1024_1_0_0_1_n_n.rhsBatch by decide), dif_pos (show (1 : Fin S3072x1024.rank) ∈ dot_S1x3072_S3072x1024_S1x1024_1_0_0_1_n_n.rhsNonContracting by decide)]
  rfl

/-- The host's product of one row with the weights, at column `q`: the sum over `k` of the products. -/
theorem dg_at (l : FVec Ideal S1x3072 .f32) (r : FVec Ideal S3072x1024 .f32) (q : Fin 1024) :
    Host.dotGeneral dot_S1x3072_S3072x1024_S1x1024_1_0_0_1_n_n none l r (ix2 (0 : Fin 1) q)
      = ∑ k : Fin 3072, l (ix2 (0 : Fin 1) k) * r (ix2 k q) := by
  simp only [Host.dotGeneral]
  rw [Ideal.dotGeneral_apply, ← Equiv.sum_comp (contrEquiv1 dot_S1x3072_S3072x1024_S1x1024_1_0_0_1_n_n 3072 rfl rfl).symm]
  refine Finset.sum_congr rfl fun k _ => ?_
  have hk := contrEquiv1_symm_val dot_S1x3072_S3072x1024_S1x1024_1_0_0_1_n_n 3072 rfl rfl k
  have el : dot_S1x3072_S3072x1024_S1x1024_1_0_0_1_n_n.lhsIdx (ix2 (0 : Fin 1) q) ((contrEquiv1 dot_S1x3072_S3072x1024_S1x1024_1_0_0_1_n_n 3072 rfl rfl).symm k) = ix2 (0 : Fin 1) k := funext fun a => Fin.ext (by
    match a with
    | ⟨0, _⟩ => exact lhs_b_0 _ _
    | ⟨1, _⟩ => exact (lhs_b_1 _ _).trans hk)
  have er : dot_S1x3072_S3072x1024_S1x1024_1_0_0_1_n_n.rhsIdx (ix2 (0 : Fin 1) q) ((contrEquiv1 dot_S1x3072_S3072x1024_S1x1024_1_0_0_1_n_n 3072 rfl rfl).symm k) = ix2 k q := funext fun a => Fin.ext (by
    match a with
    | ⟨0, _⟩ => exact (rhs_b_0 _ _).trans hk
    | ⟨1, _⟩ => exact rhs_b_1 _ _)
  rw [el, er]

/-! ## The resident windows' arrays at region entry -/

/-- Window 3's array: the column sums of the folded weights, as one row. -/
theorem win3_eq (c : Dev nD) : (V m c main_v15 : FVec Ideal S1x1024 .f32)
    = shapeCast S1x1024 (Host.reduceAdd (F := Ideal) (scaled m c) (constant (F := Ideal) S_ .f32 0x00000000#32) reducesTo_S3072x1024_S1024_d0 h_S_)
        shapeCasts_S1024_S1x1024 := by
  dsimp only [V, hostOps0]; after_results; rfl

theorem win3_at (c : Dev nD) (q : Fin 1024) :
    (V m c main_v15 : FVec Ideal S1x1024 .f32) (ix2 (0 : Fin 1) q) = ∑ k : Fin 3072, A3 m c (ix1 k) * A5 m c (ix2 k q) := by
  rw [win3_eq, shapeCast_a_1a_apply]
  simp only [Host.reduceAdd, Ideal.hostReduceAdd_def]
  rw [Ideal.hostReduceAdd_single reducesTo_S3072x1024_S1024_d0 (by decide)]
  show Ideal.ofBits .f32 0x00000000#32 + _ = _
  rw [ofBits_zero, zero_add]
  exact Finset.sum_congr rfl fun k _ =>
    (congrArg (scaled m c) (funext fun d => by match d with | ⟨0, _⟩ => rfl | ⟨1, _⟩ => rfl)).trans (scaled_at m c k q)

/-- Window 4's array: the folded bias, as one row. -/
theorem win4_eq (c : Dev nD) : (V m c main_v16 : FVec Ideal S1x1024 .f32)
    = shapeCast S1x1024 (addf (A6 m c) (shapeCast S1024 (Host.dotGeneral (F := Ideal) dot_S1x3072_S3072x1024_S1x1024_1_0_0_1_n_n none
          (shapeCast S1x3072 (A4 m c) shapeCasts_S3072_S1x3072) (A5 m c)) shapeCasts_S1x1024_S1024)) shapeCasts_S1024_S1x1024 := by
  dsimp only [V, hostOps0]; after_results; rfl

theorem win4_at (c : Dev nD) (q : Fin 1024) :
    (V m c main_v16 : FVec Ideal S1x1024 .f32) (ix2 (0 : Fin 1) q)
      = A6 m c (ix1 q) + ∑ k : Fin 3072, A4 m c (ix1 k) * A5 m c (ix2 k q) := by
  rw [win4_eq, shapeCast_a_1a_apply]
  show A6 m c (ix1 q) + (shapeCast S1024 _ shapeCasts_S1x1024_S1024) (ix1 q) = _
  rw [shapeCast_1a_a_apply, dg_at]
  refine congrArg (A6 m c (ix1 q) + ·) (Finset.sum_congr rfl fun k _ => ?_)
  rw [shapeCast_a_1a_apply]

/-- Windows 5, 6, 7: the three blocks of rows of the folded weights. -/
theorem win5_eq (c : Dev nD) : (V m c main_v11 : FVec Ideal S1024x1024 .bf16)
    = truncf .bf16 (extractStridedSlice S1024x1024 ![0, 0] (scaled m c) slices_S3072x1024_S1024x1024_0_0) bitsLt_bf16_f32 := by
  dsimp only [V, hostOps0]; after_results; rfl
theorem win6_eq (c : Dev nD) : (V m c main_v12 : FVec Ideal S1024x1024 .bf16)
    = truncf .bf16 (extractStridedSlice S1024x1024 ![1024, 0] (scaled m c) slices_S3072x1024_S1024x1024_1024_0) bitsLt_bf16_f32 := by
  dsimp only [V, hostOps0]; after_results; rfl
theorem win7_eq (c : Dev nD) : (V m c main_v13 : FVec Ideal S1024x1024 .bf16)
    = truncf .bf16 (extractStridedSlice S1024x1024 ![2048, 0] (scaled m c) slices_S3072x1024_S1024x1024_2048_0) bitsLt_bf16_f32 := by
  dsimp only [V, hostOps0]; after_results; rfl

theorem win5_at (c : Dev nD) (j q : Fin 1024) :
    (V m c main_v11 : FVec Ideal S1024x1024 .bf16) (ix2 j q) = A3 m c (ix1 (lo j)) * A5 m c (ix2 (lo j) q) := by
  rw [win5_eq]
  show extractStridedSlice S1024x1024 ![0, 0] (scaled m c) slices_S3072x1024_S1024x1024_0_0 (ix2 j q) = _
  rw [slice2_axis0_apply 0 (scaled m c) slices_S3072x1024_S1024x1024_0_0 j q (lo j) (by show j.val = 0 + j.val; omega), scaled_at]
theorem win6_at (c : Dev nD) (j q : Fin 1024) :
    (V m c main_v12 : FVec Ideal S1024x1024 .bf16) (ix2 j q) = A3 m c (ix1 (mid j)) * A5 m c (ix2 (mid j) q) := by
  rw [win6_eq]
  show extractStridedSlice S1024x1024 ![1024, 0] (scaled m c) slices_S3072x1024_S1024x1024_1024_0 (ix2 j q) = _
  rw [slice2_axis0_apply 1024 (scaled m c) slices_S3072x1024_S1024x1024_1024_0 j q (mid j) (by show 1024 + j.val = 1024 + j.val; rfl), scaled_at]
theorem win7_at (c : Dev nD) (j q : Fin 1024) :
    (V m c main_v13 : FVec Ideal S1024x1024 .bf16) (ix2 j q) = A3 m c (ix1 (hi j)) * A5 m c (ix2 (hi j) q) := by
  rw [win7_eq]
  show extractStridedSlice S1024x1024 ![2048, 0] (scaled m c) slices_S3072x1024_S1024x1024_2048_0 (ix2 j q) = _
  rw [slice2_axis0_apply 2048 (scaled m c) slices_S3072x1024_S1024x1024_2048_0 j q (hi j) (by show 2048 + j.val = 2048 + j.val; rfl), scaled_at]

/-- Window 8's array: the second layer's weights (a change of format only). -/
theorem win8_eq (c : Dev nD) : (V m c main_v14 : FVec Ideal S1024x3 .bf16) = truncf .bf16 (A7 m c) bitsLt_bf16_f32 := by
  dsimp only [V, hostOps0]; after_results
theorem win8_at (c : Dev nD) (q : Fin 1024) (a : Fin 3) : (V m c main_v14 : FVec Ideal S1024x3 .bf16) (ix2 q a) = A7 m c (ix2 q a) := by
  rw [win8_eq]; rfl

/-- Window 9's array: the second layer's bias, as one row. -/
theorem win9_eq (c : Dev nD) : (V m c main_v17 : FVec Ideal S1x3 .f32) = shapeCast S1x3 (A8 m c) shapeCasts_S3_S1x3 := by
  dsimp only [V, hostOps0]; after_results; rfl
theorem win9_at (c : Dev nD) (a : Fin 3) : (V m c main_v17 : FVec Ideal S1x3 .f32) (ix2 (0 : Fin 1) a) = A8 m c (ix1 a) := by
  rw [win9_eq, shapeCast_a_1a_apply]

end GatedFusion.Host

end
-- ==== Proof.KerArray.lean ====
/-
  From blocks to the whole array. Point `t` of the grid stages rows `512·t … 512·t + 511` of `s, t, f`
  and, at every point, the same resident blocks the host prepared; what it writes back is block `t`
  of `outKer` of the nine arguments; the 64 blocks tile the array, so the array ends at `outKer`.
-/
import proofs.«403387_j69784628625675_3_alg».proof.Proof.Gen.KernelIdeal.Value
import proofs.«403387_j69784628625675_3_alg».proof.Proof.KerBlock
import proofs.«403387_j69784628625675_3_alg».proof.Proof.KerHost

set_option maxRecDepth 16384

noncomputable section

namespace GatedFusion.Arr

open Cert.KernelIdeal Cert.KernelIdeal.Gen Cert.KernelIdeal.Value Idealize.ShloMosaic Idealize.ShloMosaic.TcCoe
open Idealize.ShloMosaic.ValueIdx Idealize.SL.Sem GatedFusion GatedFusion.Consts GatedFusion.Ker GatedFusion.Host
open Idealize.ShloMosaic.Pipeline (Dat)

variable (m : (ℓ : Loc nD τ sig) → Buf (Elt Ideal) ℓ) (ρ : Dev nD → PrngReg)

/-! ## The index maps, decided over the 64 grid points -/

/-- The three inputs' and the output's blocks move down the rows with the grid point; the resident windows stay at block
    `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

theorem point_lt (t : Fin cfg0.N) : t.val < 64 := lt_of_lt_of_eq t.isLt N_0

/-- The array row under row `p` of point `t`'s block. -/
def arow (t : Fin cfg0.N) (p : Fin 512) : Fin 32768 :=
  ⟨t.val * 512 + p.val, by have := point_lt t; have := p.isLt; omega⟩

/-! ## Each window's block at a point, read at an index -/

theorem blk0_at (c : Dev nD) (t : Fin cfg0.N) (p : Fin 512) (j : Fin 1024) :
    iblk m c 0 t (ix2 p j) = A0 m c (ix2 (arow t p) j) := by
  have e := idx_facts t
  show V m c main_arg0 (((cfg0.win 0).blk t).view.emb (ix2 p j)) = _
  rw [V_main_arg0]
  refine congrArg (A0 m c) (funext fun a => Fin.ext ?_)
  match a with
  | ⟨0, _⟩ => show win0_0.index t (0 : Fin 2) * 512 + 1 * p.val = t.val * 512 + p.val; rw [e.1]; omega
  | ⟨1, _⟩ => show win0_0.index t (1 : Fin 2) * 1024 + 1 * j.val = j.val; rw [e.2.1]; omega

theorem blk1_at (c : Dev nD) (t : Fin cfg0.N) (p : Fin 512) (j : Fin 1024) :
    iblk m c 1 t (ix2 p j) = A1 m c (ix2 (arow t p) j) := by
  have e := idx_facts t
  show V m c main_arg1 (((cfg0.win 1).blk t).view.emb (ix2 p j)) = _
  rw [V_main_arg1]
  refine congrArg (A1 m c) (funext fun a => Fin.ext ?_)
  match a with
  | ⟨0, _⟩ => show win0_1.index t (0 : Fin 2) * 512 + 1 * p.val = t.val * 512 + p.val; rw [e.2.2.1]; omega
  | ⟨1, _⟩ => show win0_1.index t (1 : Fin 2) * 1024 + 1 * j.val = j.val; rw [e.2.2.2.1]; omega

theorem blk2_at (c : Dev nD) (t : Fin cfg0.N) (p : Fin 512) (j : Fin 1024) :
    iblk m c 2 t (ix2 p j) = A2 m c (ix2 (arow t p) j) := by
  have e := idx_facts t
  show V m c main_arg2 (((cfg0.win 2).blk t).view.emb (ix2 p j)) = _
  rw [V_main_arg2]
  refine congrArg (A2 m c) (funext fun a => Fin.ext ?_)
  match a with
  | ⟨0, _⟩ => show win0_2.index t (0 : Fin 2) * 512 + 1 * p.val = t.val * 512 + p.val; rw [e.2.2.2.2.1]; omega
  | ⟨1, _⟩ => show win0_2.index t (1 : Fin 2) * 1024 + 1 * j.val = j.val; rw [e.2.2.2.2.2.1]; omega

theorem blk3_at (c : Dev nD) (t : Fin cfg0.N) (q : Fin 1024) :
    iblk m c 3 t (ix2 (0 : Fin 1) q) = ∑ k : Fin 3072, A3 m c (ix1 k) * A5 m c (ix2 k q) := by
  have e := (idx_facts t).2.2.2.2.2.2
  show V m c main_v15 (((cfg0.win 3).blk t).view.emb (ix2 (0 : Fin 1) q)) = _
  refine (congrArg _ (funext fun a => Fin.ext ?_)).trans (win3_at m c q)
  match a with
  | ⟨0, _⟩ => show win0_3.index t (0 : Fin 2) * 1 + 1 * 0 = 0; rw [e.1]
  | ⟨1, _⟩ => show win0_3.index t (1 : Fin 2) * 1024 + 1 * q.val = q.val; rw [e.2.1]; omega

theorem blk4_at (c : Dev nD) (t : Fin cfg0.N) (q : Fin 1024) :
    iblk m c 4 t (ix2 (0 : Fin 1) q) = A6 m c (ix1 q) + ∑ k : Fin 3072, A4 m c (ix1 k) * A5 m c (ix2 k q) := by
  have e := (idx_facts t).2.2.2.2.2.2.2.2
  show V m c main_v16 (((cfg0.win 4).blk t).view.emb (ix2 (0 : Fin 1) q)) = _
  refine (congrArg _ (funext fun a => Fin.ext ?_)).trans (win4_at m c q)
  match a with
  | ⟨0, _⟩ => show win0_4.index t (0 : Fin 2) * 1 + 1 * 0 = 0; rw [e.1]
  | ⟨1, _⟩ => show win0_4.index t (1 : Fin 2) * 1024 + 1 * q.val = q.val; rw [e.2.1]; omega

theorem blk5_at (c : Dev nD) (t : Fin cfg0.N) (j q : Fin 1024) :
    iblk m c 5 t (ix2 j q) = A3 m c (ix1 (lo j)) * A5 m c (ix2 (lo j) q) := by
  have e := (idx_facts t).2.2.2.2.2.2.2.2.2.2
  show V m c main_v11 (((cfg0.win 5).blk t).view.emb (ix2 j q)) = _
  refine (congrArg _ (funext fun a => Fin.ext ?_)).trans (win5_at m c j q)
  match a with
  | ⟨0, _⟩ => show win0_5.index t (0 : Fin 2) * 1024 + 1 * j.val = j.val; rw [e.1]; omega
  | ⟨1, _⟩ => show win0_5.index t (1 : Fin 2) * 1024 + 1 * q.val = q.val; rw [e.2.1]; omega

theorem blk6_at (c : Dev nD) (t : Fin cfg0.N) (j q : Fin 1024) :
    iblk m c 6 t (ix2 j q) = A3 m c (ix1 (mid j)) * A5 m c (ix2 (mid j) q) := by
  have e := (idx_facts t).2.2.2.2.2.2.2.2.2.2.2.2
  show V m c main_v12 (((cfg0.win 6).blk t).view.emb (ix2 j q)) = _
  refine (congrArg _ (funext fun a => Fin.ext ?_)).trans (win6_at m c j q)
  match a with
  | ⟨0, _⟩ => show win0_6.index t (0 : Fin 2) * 1024 + 1 * j.val = j.val; rw [e.1]; omega
  | ⟨1, _⟩ => show win0_6.index t (1 : Fin 2) * 1024 + 1 * q.val = q.val; rw [e.2.1]; omega

theorem blk7_at (c : Dev nD) (t : Fin cfg0.N) (j q : Fin 1024) :
    iblk m c 7 t (ix2 j q) = A3 m c (ix1 (hi j)) * A5 m c (ix2 (hi j) q) := by
  have e := (idx_facts t).2.2.2.2.2.2.2.2.2.2.2.2.2.2
  show V m c main_v13 (((cfg0.win 7).blk t).view.emb (ix2 j q)) = _
  refine (congrArg _ (funext fun a => Fin.ext ?_)).trans (win7_at m c j q)
  match a with
  | ⟨0, _⟩ => show win0_7.index t (0 : Fin 2) * 1024 + 1 * j.val = j.val; rw [e.1]; omega
  | ⟨1, _⟩ => show win0_7.index t (1 : Fin 2) * 1024 + 1 * q.val = q.val; rw [e.2.1]; omega

theorem blk8_at (c : Dev nD) (t : Fin cfg0.N) (q : Fin 1024) (a : Fin 3) :
    iblk m c 8 t (ix2 q a) = A7 m c (ix2 q a) := by
  have e := (idx_facts t).2.2.2.2.2.2.2.2.2.2.2.2.2.2.2.2
  show V m c main_v14 (((cfg0.win 8).blk t).view.emb (ix2 q a)) = _
  refine (congrArg _ (funext fun d => Fin.ext ?_)).trans (win8_at m c q a)
  match d with
  | ⟨0, _⟩ => show win0_8.index t (0 : Fin 2) * 1024 + 1 * q.val = q.val; rw [e.1]; omega
  | ⟨1, _⟩ => show win0_8.index t (1 : Fin 2) * 3 + 1 * a.val = a.val; rw [e.2.1]; omega

theorem blk9_at (c : Dev nD) (t : Fin cfg0.N) (a : Fin 3) :
    iblk m c 9 t (ix2 (0 : Fin 1) a) = A8 m c (ix1 a) := by
  have e := (idx_facts t).2.2.2.2.2.2.2.2.2.2.2.2.2.2.2.2.2.2
  show V m c main_v17 (((cfg0.win 9).blk t).view.emb (ix2 (0 : Fin 1) a)) = _
  refine (congrArg _ (funext fun d => Fin.ext ?_)).trans (win9_at m c a)
  match d with
  | ⟨0, _⟩ => show win0_9.index t (0 : Fin 2) * 1 + 1 * 0 = 0; rw [e.1]
  | ⟨1, _⟩ => show win0_9.index t (1 : Fin 2) * 3 + 1 * a.val = a.val; rw [e.2.1]; omega

/-! ## What each point writes back, and the whole array -/

/-- The result array, in the kernel's form, of the nine arguments as launched. -/
abbrev result (c : Dev nD) : FVec Ideal S32768x1024 .f32 :=
  outKer (A0 m c) (A1 m c) (A2 m c) (A3 m c) (A4 m c) (A5 m c) (A6 m c) (A7 m c) (A8 m c)

/-- Entry `(p, q)` of point `t`'s output block lies at row `512·t + p`, column `q` of the array. -/
theorem emb10 (t : Fin cfg0.N) (p : Fin 512) (q : Fin 1024) :
    ((cfg0.win 10).blk t).view.emb (ix2 p q) = ix2 (arow t p) q := by
  have e := (idx_facts t).2.2.2.2.2.2.2.2.2.2.2.2.2.2.2.2.2.2.2.2
  refine funext fun a => Fin.ext ?_
  match a with
  | ⟨0, _⟩ => show win0_10.index t (0 : Fin 2) * 512 + 1 * p.val = t.val * 512 + p.val; rw [e.1]; omega
  | ⟨1, _⟩ => show win0_10.index t (1 : Fin 2) * 1024 + 1 * q.val = q.val; rw [e.2]; omega

/-- Entry `(p, q)` of what the body leaves in the output block at point `t`: the rows under the block are rows
    `512·t + p` of the inputs, the resident blocks hold what the host prepared, so it is `outKer` there. -/
theorem block_at (c : Dev nD) (t : Fin cfg0.N) (p : Fin 512) (q : Fin 1024) :
    out0_10 (iblk m c 0 t) (iblk m c 1 t) (iblk m c 2 t) (iblk m c 3 t) (iblk m c 4 t) (iblk m c 5 t) (iblk m c 6 t) (iblk m c 7 t)
        (iblk m c 8 t) (iblk m c 9 t) (ix2 p q)
      = result m c (ix2 (arow t p) q) :=
  block_out (iblk m c 0 t) (iblk m c 1 t) (iblk m c 2 t) (iblk m c 3 t) (iblk m c 4 t) (iblk m c 5 t) (iblk m c 6 t) (iblk m c 7 t)
    (iblk m c 8 t) (iblk m c 9 t) p q
    (rowOf (A0 m c) (arow t p)) (rowOf (A1 m c) (arow t p)) (rowOf (A2 m c) (arow t p))
    (fun j q => A3 m c (ix1 (lo j)) * A5 m c (ix2 (lo j) q)) (fun j q => A3 m c (ix1 (mid j)) * A5 m c (ix2 (mid j) q))
    (fun j q => A3 m c (ix1 (hi j)) * A5 m c (ix2 (hi j) q))
    (fun q => ∑ k, A3 m c (ix1 k) * A5 m c (ix2 k q)) (fun q => A6 m c (ix1 q) + ∑ k, A4 m c (ix1 k) * A5 m c (ix2 k q))
    (fun q a => A7 m c (ix2 q a)) (fun a => A8 m c (ix1 a))
    (fun j => blk0_at m c t p j) (fun j => blk1_at m c t p j) (fun j => blk2_at m c t p j)
    (fun q => blk3_at m c t q) (fun q => blk4_at m c t q)
    (fun j q => blk5_at m c t j q) (fun j q => blk6_at m c t j q) (fun j q => blk7_at m c t j q)
    (fun q a => blk8_at m c t q a) (fun a => blk9_at m c t a)

/-- WHAT POINT `t` WRITES BACK is block `t` of the result array. -/
theorem flushed_eq (c : Dev nD) (t : Fin cfg0.N) :
    (dats m 0 c).flushed 10 t = ((cfg0.win 10).blk t).view.read (Elt Ideal) (result m c) := by
  rw [flushed10]
  funext y
  obtain ⟨p, q, rfl⟩ : ∃ (p : Fin 512) (q : Fin 1024), y = ix2 p q := ⟨y 0, y 1, eq_ix2 y⟩
  show out0_10 (iblk m c 0 t) (iblk m c 1 t) (iblk m c 2 t) (iblk m c 3 t) (iblk m c 4 t) (iblk m c 5 t) (iblk m c 6 t) (iblk m c 7 t)
      (iblk m c 8 t) (iblk m c 9 t) (ix2 p q) = result m c (((cfg0.win 10).blk t).view.emb (ix2 p q))
  rw [emb10]
  exact block_at m c t p q

/-- An index of the array is in point `t`'s block iff each coordinate is in the block's range on its axis. -/
theorem mem_blk (t : Fin cfg0.N) (i : S32768x1024.Idx) :
    i ∈ ((cfg0.win 10).blk t).view.set ↔ ∀ a : Fin 2, win0_10.index t a * S512x1024.size a ≤ (i a).val
      ∧ (i a).val < win0_10.index t a * S512x1024.size a + S512x1024.size a := by
  show i ∈ ((View.whole main_v18).slice (win0_10.rect t)).set ↔ _
  rw [View.set_slice_whole, Rect.mem_set_unit]
  exact Iff.rfl

/-- The 64 blocks tile the array: row `r` is in the block of point `r / 512`. -/
theorem cover (c : Dev nD) (i : ((cfg0.win 10).arr.view.loc (c.tc : Thread nD τ)).2.ty.Idx) :
    ∃ t : Fin cfg0.N, (cfg0.win 10).flush t = true ∧ i ∈ ((cfg0.win 10).blk t).view.set := by
  have h0 : (i 0).val < 32768 := (i 0).isLt
  have h1 : (i 1).val < 1024 := (i 1).isLt
  have hN : (i 0).val / 512 < cfg0.N := by
    show (i 0).val / 512 < grid0.N
    rw [N_0]; omega
  have e := (idx_facts ⟨(i 0).val / 512, hN⟩).2.2.2.2.2.2.2.2.2.2.2.2.2.2.2.2.2.2.2.2
  refine ⟨⟨(i 0).val / 512, hN⟩, flush0_10 _, ?_⟩
  rw [mem_blk]
  intro a
  match a with
  | ⟨0, _⟩ =>
    show win0_10.index ⟨(i 0).val / 512, hN⟩ (0 : Fin 2) * 512 ≤ (i 0).val
      ∧ (i 0).val < win0_10.index ⟨(i 0).val / 512, hN⟩ (0 : Fin 2) * 512 + 512
    rw [e.1]
    show (i 0).val / 512 * 512 ≤ (i 0).val ∧ (i 0).val < (i 0).val / 512 * 512 + 512
    omega
  | ⟨1, _⟩ =>
    show win0_10.index ⟨(i 0).val / 512, hN⟩ (1 : Fin 2) * 1024 ≤ (i 1).val
      ∧ (i 1).val < win0_10.index ⟨(i 0).val / 512, hN⟩ (1 : Fin 2) * 1024 + 1024
    rw [e.2]
    omega

/-- THE ARRAY AFTER THE RUN is the result array. -/
theorem final (c : Dev nD) : (dats m 0 c).arrAt 10 cfg0.N = result m c :=
  (dats m 0 c).arrAt_eq_of_cover 10 (result m c) (fun t _ => flushed_eq m c t) (cover c)

/-- The kernel's run, re-posted: the result buffer ends at `outKer` of the arguments, the arguments unchanged. -/
theorem run : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end GatedFusion.Arr

end
-- ==== Proof.Finite.lean ====
/-
  From the precondition to finiteness. The printed predicate is a conjunction of nine `all |x| < +∞`
  tests; where it holds, every entry of each argument is a real number (an extended real whose
  absolute value is below `+∞` is neither infinity).
-/
import proofs.«403387_j69784628625675_3_alg».proof.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace GatedFusion.Finite

open Cert.Pre_finite_inputs Idealize.ShloMosaic Idealize.ShloMosaic.ValueIdx

/-- The pattern the tests compare against denotes `+∞`. -/
theorem ofBits_pinf : Ideal.ofBits .f32 0x7F800000#32 = ⊤ := by
  simp [Ideal.ofBits, Ideal.ieee]

/-- An extended real whose absolute value is below `+∞` is a real. -/
theorem real_of_abs_lt (x : EReal) (h : max x (-x) < ⊤) : ∃ r : ℝ, x = (r : EReal) := by
  induction x using EReal.rec with
  | bot => exact absurd h (by simp)
  | top => exact absurd h (by simp)
  | coe r => exact ⟨r, rfl⟩

instance : Subsingleton S_.Idx := ⟨fun a b => funext fun d => d.elim0⟩

/-- One `all |x| < +∞` test that came out true: every entry of `x` is a real. -/
theorem real_of_all {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (cmpf .olt (Host.absf x) (broadcastInDim s ![] hb (constant (F := Ideal) S_ .f32 0x7F800000#32)))
        (constantI S_ 1 1#1) hr hu ix0 = 1#1) (i : s.Idx) : ∃ r : ℝ, x i = (r : EReal) := by
  have h1 := Host.reduce_andi_all _ _ hr hu ix0 e i
  have hbc : broadcastInDim s ![] hb (constant (F := Ideal) S_ .f32 0x7F800000#32) i = Ideal.ofBits .f32 0x7F800000#32 :=
    broadcastInDim_apply _ hb _ i ix0 (fun a => a.elim0)
  have h2 : Ideal.cmp .olt (max (x i) (-(x i))) (Ideal.ofBits .f32 0x7F800000#32) = 1#1 := by
    rw [← hbc]; exact h1
  rw [ofBits_pinf] at h2
  refine real_of_abs_lt (x i) ?_
  by_contra hn
  simp [Ideal.cmp, hn] at h2

variable [Facts]

/-- Where the precondition holds, every entry of the first seven arguments (the three inputs, the normalisation's scale
    and shift, the first layer's weights and bias) is a real. -/
theorem reals_of_pre (x0 x1 x2 : FVec Ideal S32768x1024 .f32) (x3 x4 : FVec Ideal S3072 .f32) (x5 : FVec Ideal S3072x1024 .f32)
    (x6 : FVec Ideal S1024 .f32) (x7 : FVec Ideal S1024x3 .f32) (x8 : FVec Ideal S3 .f32)
    (h : fn (F := Ideal) x0 x1 x2 x3 x4 x5 x6 x7 x8 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal))
      ∧ (∀ i, ∃ r : ℝ, x6 i = (r : EReal)) := by
  have h0 := congrFun h ix0
  simp only [fn, fn_part1, fn_part2, andi, IntOp.andi_eq_one] at h0
  obtain ⟨⟨⟨⟨⟨⟨⟨⟨a0, a1⟩, a2⟩, a3⟩, a4⟩, a5⟩, a6⟩, -⟩, -⟩ := h0
  exact ⟨real_of_all x0 _ _ _ a0, real_of_all x1 _ _ _ a1, real_of_all x2 _ _ _ a2, real_of_all x3 _ _ _ a3,
    real_of_all x4 _ _ _ a4, real_of_all x5 _ _ _ a5, real_of_all x6 _ _ _ a6⟩

end GatedFusion.Finite

end
-- ==== Proof.lean ====
/-
  The gated fusion of three inputs: each row of `s, t, f` (1024 entries each) is normalised as one row of 3072 entries
  (layer normalisation with scale `w` and shift `β`), sent through a linear layer `W, b`, a relu and a second linear layer
  `W2, b2` to three logits, and the softmax of the logits mixes the row's entries of `s, t, f`.

  The kernel differs from the reference in four ways, none of which changes the value over the extended reals on finite
  inputs. It takes the mean as the sum times a constant NAMED `1/3072` where the reference divides by `3072`. It takes
  the variance in one pass, `max (Σc²/3072 - μ², 0)`, where the reference takes `Σ(c - μ)²/3072`: the two agree, the
  second being a mean of squares, so the clamp does nothing. It folds the normalisation's scale and shift into the first
  layer, `σ·(Σ_k c_k·(w_k·W_kq) - μ·Σ_k w_k·W_kq) + (b_q + Σ_k β_k·W_kq)` for `Σ_k ((c_k - μ)·σ·w_k + β_k)·W_kq + b_q`, which
  is distributivity over finite values. And it sums each third of a row separately and multiplies in a narrower float
  format, which at the ideal values is the identity. Everything after the hidden pre-activation is the same operations
  on both sides.

  The modules: Proof/RowMath.lean (the mathematics, over plain index types, and the law between the two pre-activations),
  Proof/RefValue.lean (the reference read at an index), Proof/KerOps.lean, Proof/KerBlock.lean, Proof/KerHost.lean and
  Proof/KerArray.lean (the kernel's block, the host's prepared weights, and the array the blocks tile),
  Proof/Finite.lean (the precondition gives real entries). The frames and the two runs are the generated ones.
-/
import proofs.«403387_j69784628625675_3_alg».proof.Defs
import proofs.«403387_j69784628625675_3_alg».proof.Proof.Gen.Kernel
import proofs.«403387_j69784628625675_3_alg».proof.Proof.Gen.Kernel.Skeleton
import proofs.«403387_j69784628625675_3_alg».proof.Proof.Gen.Kernel.Launch
import proofs.«403387_j69784628625675_3_alg».proof.Proof.Gen.Kernel.Points
import proofs.«403387_j69784628625675_3_alg».proof.Proof.Gen.Kernel.Frame
import proofs.«403387_j69784628625675_3_alg».proof.Proof.Gen.KernelIdeal
import proofs.«403387_j69784628625675_3_alg».proof.Proof.Gen.KernelIdeal.Skeleton
import proofs.«403387_j69784628625675_3_alg».proof.Proof.Gen.KernelIdeal.Launch
import proofs.«403387_j69784628625675_3_alg».proof.Proof.Gen.KernelIdeal.Points
import proofs.«403387_j69784628625675_3_alg».proof.Proof.Gen.KernelIdeal.Frame
import proofs.«403387_j69784628625675_3_alg».proof.Proof.Gen.ReferenceIdeal
import proofs.«403387_j69784628625675_3_alg».proof.Proof.Gen.Pre_finite_inputs
import proofs.«403387_j69784628625675_3_alg».proof.Proof.Gen.KernelIdeal.Value
import proofs.«403387_j69784628625675_3_alg».proof.Proof.Gen.ReferenceIdeal.Run
import proofs.«403387_j69784628625675_3_alg».proof.Proof.Gen.ReferenceIdeal.Read
import proofs.«403387_j69784628625675_3_alg».proof.Proof.RefValue
import proofs.«403387_j69784628625675_3_alg».proof.Proof.KerArray
import proofs.«403387_j69784628625675_3_alg».proof.Proof.Finite
import Idealize.ShloMosaic.Adequacy
import Idealize.ShloMosaic.Init

noncomputable section

namespace Cert.Proof

open Idealize.ShloMosaic Idealize.SL.Sem Cert.Kernel

/-! ## The frames -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-! ## The idealization -/

/-- The ledger's two entries, the two uses of the reciprocal of the row length: the certificate's table gives `"inv_3072"`
    the value `1/3072`, and the printed constant is that value at the ideal instance. -/
theorem preserves : Cert.preserves_Kernel_KernelIdeal :=
  ⟨IdealRules.named_const.statement Cert.KernelIdeal.κ "inv_3072" .f32 0x39AAAAAB#32 ((1 / 3072 : ℝ) : EReal) rfl,
   IdealRules.named_const.statement Cert.KernelIdeal.κ "inv_3072" .f32 0x39AAAAAB#32 ((1 / 3072 : ℝ) : EReal) rfl⟩

/-! ## The two programs compute one array -/

/-- The kernel's result array ends at the gated mix with the logits in the kernel's form (the blocks tile the array); the
    precondition makes every entry of the inputs, the normalisation's parameters and the first layer real, so that form is
    the reference's; and the reference's run ends at the reference's form of arguments that agree with the kernel's. -/
theorem algebraic : Cert.algebraic_KernelIdeal_ReferenceIdeal := by
  intro m ρ m' ρ' hpre hagree
  refine ⟨fun c => GatedFusion.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · refine (θ_run Cert.KernelIdeal.defs _ _).mono (fun r h c => ⟨(h c).1.trans ?_, (h c).2⟩) (GatedFusion.Arr.run m ρ)
    obtain ⟨f0, f1, f2, f3, f4, f5, f6⟩ := GatedFusion.Finite.reals_of_pre _ _ _ _ _ _ _ _ _ (hpre c)
    exact GatedFusion.outKer_eq_out _ _ _ _ _ _ _ _ _ f0 f1 f2 f3 f4 f5 f6
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v55_eq, GatedFusion.Ref.ref_eq, (hagree c).1, (hagree c).2.1, (hagree c).2.2.1,
      (hagree c).2.2.2.1, (hagree c).2.2.2.2.1, (hagree c).2.2.2.2.2.1, (hagree c).2.2.2.2.2.2.1, (hagree c).2.2.2.2.2.2.2.1,
      (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
